-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x256 : Shape := ⟨2, ![128, 256]⟩
abbrev S128 : Shape := ⟨1, ![128]⟩
abbrev S1x128 : Shape := ⟨2, ![1, 128]⟩
abbrev S1 : Shape := ⟨1, ![1]⟩
abbrev S600000 : Shape := ⟨1, ![600000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_
  bcast_S_S600000 : S_.BroadcastsInDim S600000 (![] : Fin 0 → Fin S600000.rank)
  reducesTo_S600000_S_d0 : S600000.ReducesTo [0] S_

variable [Facts]

def fn_part1 {F : FTy → Type} [FloatOps F] (main_arg4 : FVec F S1 .f32) (main_arg5 : IVec S600000 32) (main_arg6 : IVec S600000 32) (main_v13 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_c_8 : IVec S_ 32 := constantI S_ 32 0#32
  let main_v24 : IVec S600000 32 := broadcastInDim S600000 ![] bcast_S_S600000 main_c_8
  let main_v25 : IVec S600000 1 := cmpi .sge main_arg5 main_v24
  let main_c_9 : IVec S_ 1 := constantI S_ 1 1#1
  let main_v26 : IVec S_ 1 := (fun x v => Host.reduce IntOp.andi x v reducesTo_S600000_S_d0 h_S_) main_v25 main_c_9
  let main_v27 : IVec S_ 1 := andi main_v23 main_v26
  let main_c_10 : IVec S_ 32 := constantI S_ 32 0#32
  let main_v28 : IVec S600000 32 := broadcastInDim S600000 ![] bcast_S_S600000 main_c_10
  let main_v29 : IVec S600000 1 := cmpi .sge main_arg6 main_v28
  let main_c_11 : IVec S_ 1 := constantI S_ 1 1#1
  let main_v30 : IVec S_ 1 := (fun x v => Host.reduce IntOp.andi x v reducesTo_S600000_S_d0 h_S_) main_v29 main_c_11
  let main_v31 : IVec S_ 1 := andi main_v27 main_v30
  main_v31

def fn {F : FTy → Type} [FloatOps F] (main_arg0 : FVec F S50000x128 .f32) (main_arg1 : FVec F S128x256 .f32) (main_arg2 : FVec F S128 .f32) (main_arg3 : FVec F S1x128 .f32) (main_arg4 : FVec F S1 .f32) (main_arg5 : IVec S600000 32) (main_arg6 : IVec S600000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S1x128 .f32 := Host.absf main_arg3
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_arg4 main_arg5 main_arg6 main_v13 main_v16
-- ==== Kernel.lean ====
abbrev S50000x128 : Shape := ⟨2, ![50000, 128]⟩
abbrev S128x256 : Shape := ⟨2, ![128, 256]⟩
abbrev S128 : Shape := ⟨1, ![128]⟩
abbrev S1x128 : Shape := ⟨2, ![1, 128]⟩
abbrev S1 : Shape := ⟨1, ![1]⟩
abbrev S600000 : Shape := ⟨1, ![600000]⟩
abbrev S128x128 : Shape := ⟨2, ![128, 128]⟩
abbrev S1x1 : Shape := ⟨2, ![1, 1]⟩
abbrev S2000x128 : Shape := ⟨2, ![2000, 128]⟩
abbrev S_ : Shape := ⟨0, ![]⟩
abbrev S600000x1 : Shape := ⟨2, ![600000, 1]⟩
abbrev S600000x128 : Shape := ⟨2, ![600000, 128]⟩
abbrev S606208x128 : Shape := ⟨2, ![606208, 128]⟩
abbrev S606208 : Shape := ⟨1, ![606208]⟩
abbrev S8192x128 : Shape := ⟨2, ![8192, 128]⟩
abbrev S8192 : Shape := ⟨1, ![8192]⟩

abbrev nBuf : Space → Nat
  | .hbm => 85
  | .vmem => 17
  | .smem => 0
  | _ => 0

abbrev bufTy : (tb : Table) → Fin (tcTables nBuf tb) → BufTy
  | .hbm, ⟨0, _⟩ => ⟨S50000x128, .f32⟩
  | .hbm, ⟨1, _⟩ => ⟨S128x256, .f32⟩
  | .hbm, ⟨2, _⟩ => ⟨S128, .f32⟩
  | .hbm, ⟨3, _⟩ => ⟨S1x128, .f32⟩
  | .hbm, ⟨4, _⟩ => ⟨S1, .f32⟩
  | .hbm, ⟨5, _⟩ => ⟨S600000, .i32⟩
  | .hbm, ⟨6, _⟩ => ⟨S600000, .i32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S1x128, .f32⟩
  | .hbm, ⟨12, _⟩ => ⟨S1x1, .f32⟩
  | .hbm, ⟨13, _⟩ => ⟨S50000x128, .f32⟩
  | .hbm, ⟨14, _⟩ => ⟨S50000x128, .f32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S600000, .i32⟩
  | .hbm, ⟨19, _⟩ => ⟨S600000, .i32⟩
  | .hbm, ⟨20, _⟩ => ⟨S_, .i32⟩
  | .hbm, ⟨21, _⟩ => ⟨S600000, .i32⟩
  | .hbm, ⟨22, _⟩ => ⟨S600000, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S600000, .i32⟩
  | .hbm, ⟨27, _⟩ => ⟨S600000, .i32⟩
  | .hbm, ⟨28, _⟩ => ⟨S_, .i32⟩
  | .hbm, ⟨29, _⟩ => ⟨S600000, .i32⟩
  | .hbm, ⟨30, _⟩ => ⟨S600000, .i32⟩
  | .hbm, ⟨31, _⟩ => ⟨S_, .i32⟩
  | .hbm, ⟨32, _⟩ => ⟨S600000, .i32⟩
  | .hbm, ⟨33, _⟩ => ⟨S600000, .i1⟩
  | .hbm, ⟨34, _⟩ => ⟨S_, .i32⟩
  | .hbm, ⟨35, _⟩ => ⟨S600000, .i32⟩
  | .hbm, ⟨36, _⟩ => ⟨S600000, .i32⟩
  | .hbm, ⟨37, _⟩ => ⟨S600000, .i32⟩
  | .hbm, ⟨38, _⟩ => ⟨S600000x1, .i32⟩
  | .hbm, ⟨39, _⟩ => ⟨S1, .i32⟩
  | .hbm, ⟨40, _⟩ => ⟨S_, .i32⟩
  | .hbm, ⟨41, _⟩ => ⟨S600000x1, .i32⟩
  | .hbm, ⟨42, _⟩ => ⟨S600000x1, .i1⟩
  | .hbm, ⟨43, _⟩ => ⟨S1x1, .i32⟩
  | .hbm, ⟨44, _⟩ => ⟨S600000x1, .i32⟩
  | .hbm, ⟨45, _⟩ => ⟨S600000x1, .i1⟩
  | .hbm, ⟨46, _⟩ => ⟨S600000x1, .i1⟩
  | .hbm, ⟨47, _⟩ => ⟨S_, .i1⟩
  | .hbm, ⟨48, _⟩ => ⟨S600000, .i1⟩
  | .hbm, ⟨49, _⟩ => ⟨S600000x128, .f32⟩
  | .hbm, ⟨50, _⟩ => ⟨S600000x128, .i1⟩
  | .hbm, ⟨51, _⟩ => ⟨S_, .f32⟩
  | .hbm, ⟨52, _⟩ => ⟨S600000x128, .f32⟩
  | .hbm, ⟨53, _⟩ => ⟨S600000x128, .f32⟩
  | .hbm, ⟨54, _⟩ => ⟨S_, .i32⟩
  | .hbm, ⟨55, _⟩ => ⟨S600000, .i32⟩
  | .hbm, ⟨56, _⟩ => ⟨S600000, .i1⟩
  | .hbm, ⟨57, _⟩ => ⟨S_, .i32⟩
  | .hbm, ⟨58, _⟩ => ⟨S600000, .i32⟩
  | .hbm, ⟨59, _⟩ => ⟨S600000, .i32⟩
  | .hbm, ⟨60, _⟩ => ⟨S600000, .i32⟩
  | .hbm, ⟨61, _⟩ => ⟨S600000x1, .i32⟩
  | .hbm, ⟨62, _⟩ => ⟨S1, .i32⟩
  | .hbm, ⟨63, _⟩ => ⟨S_, .i32⟩
  | .hbm, ⟨64, _⟩ => ⟨S600000x1, .i32⟩
  | .hbm, ⟨65, _⟩ => ⟨S600000x1, .i1⟩
  | .hbm, ⟨66, _⟩ => ⟨S1x1, .i32⟩
  | .hbm, ⟨67, _⟩ => ⟨S600000x1, .i32⟩
  | .hbm, ⟨68, _⟩ => ⟨S600000x1, .i1⟩
  | .hbm, ⟨69, _⟩ => ⟨S600000x1, .i1⟩
  | .hbm, ⟨70, _⟩ => ⟨S_, .i1⟩
  | .hbm, ⟨71, _⟩ => ⟨S600000, .i1⟩
  | .hbm, ⟨72, _⟩ => ⟨S600000x128, .f32⟩
  | .hbm, ⟨73, _⟩ => ⟨S600000x128, .i1⟩
  | .hbm, ⟨74, _⟩ => ⟨S_, .f32⟩
  | .hbm, ⟨75, _⟩ => ⟨S600000x128, .f32⟩
  | .hbm, ⟨76, _⟩ => ⟨S600000x128, .f32⟩
  | .hbm, ⟨77, _⟩ => ⟨S_, .i32⟩
  | .hbm, ⟨78, _⟩ => ⟨S_, .f32⟩
  | .hbm, ⟨79, _⟩ => ⟨S606208x128, .f32⟩
  | .hbm, ⟨80, _⟩ => ⟨S_, .i32⟩
  | .hbm, ⟨81, _⟩ => ⟨S_, .f32⟩
  | .hbm, ⟨82, _⟩ => ⟨S606208x128, .f32⟩
  | .hbm, ⟨83, _⟩ => ⟨S606208, .f32⟩
  | .hbm, ⟨84, _⟩ => ⟨S600000, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S128x128, .f32⟩
  | .local _ .vmem, ⟨4, _⟩ => ⟨S1x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S8192x128, .f32⟩
  | .local _ .vmem, ⟨10, _⟩ => ⟨S8192x128, .f32⟩
  | .local _ .vmem, ⟨11, _⟩ => ⟨S8192x128, .f32⟩
  | .local _ .vmem, ⟨12, _⟩ => ⟨S8192x128, .f32⟩
  | .local _ .vmem, ⟨13, _⟩ => ⟨S1x128, .f32⟩
  | .local _ .vmem, ⟨14, _⟩ => ⟨S1x1, .f32⟩
  | .local _ .vmem, ⟨15, _⟩ => ⟨S8192, .f32⟩
  | .local _ .vmem, ⟨16, _⟩ => ⟨S8192, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_c : Ref sig .tc := ⟨.hbm, 15, rfl⟩
abbrev main_c_0 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v7 : Ref sig .tc := ⟨.hbm, 22, rfl⟩
abbrev main_c_1 : Ref sig .tc := ⟨.hbm, 23, rfl⟩
abbrev main_c_2 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_v8 : Ref sig .tc := ⟨.hbm, 30, rfl⟩
abbrev main_call2_c : Ref sig .tc := ⟨.hbm, 31, rfl⟩
abbrev main_call2_v0 : Ref sig .tc := ⟨.hbm, 32, rfl⟩
abbrev main_call2_v1 : Ref sig .tc := ⟨.hbm, 33, rfl⟩
abbrev main_call2_c_0 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_call2_v5 : Ref sig .tc := ⟨.hbm, 38, rfl⟩
abbrev main_call2_c_1 : Ref sig .tc := ⟨.hbm, 39, rfl⟩
abbrev main_call2_c_2 : Ref sig .tc := ⟨.hbm, 40, rfl⟩
abbrev main_call2_v6 : Ref sig .tc := ⟨.hbm, 41, rfl⟩
abbrev main_call2_v7 : Ref sig .tc := ⟨.hbm, 42, rfl⟩
abbrev main_call2_v8 : Ref sig .tc := ⟨.hbm, 43, rfl⟩
abbrev main_call2_v9 : Ref sig .tc := ⟨.hbm, 44, rfl⟩
abbrev main_call2_v10 : Ref sig .tc := ⟨.hbm, 45, rfl⟩
abbrev main_call2_v11 : Ref sig .tc := ⟨.hbm, 46, rfl⟩
abbrev main_call2_c_3 : Ref sig .tc := ⟨.hbm, 47, rfl⟩
abbrev main_call2_v12 : Ref sig .tc := ⟨.hbm, 48, rfl⟩
abbrev main_call2_v13 : Ref sig .tc := ⟨.hbm, 49, rfl⟩
abbrev main_call2_v14 : Ref sig .tc := ⟨.hbm, 50, rfl⟩
abbrev main_call2_cst : Ref sig .tc := ⟨.hbm, 51, rfl⟩
abbrev main_call2_v15 : Ref sig .tc := ⟨.hbm, 52, rfl⟩
abbrev main_v9 : Ref sig .tc := ⟨.hbm, 53, rfl⟩
abbrev main_call3_c : Ref sig .tc := ⟨.hbm, 54, rfl⟩
abbrev main_call3_v0 : Ref sig .tc := ⟨.hbm, 55, rfl⟩
abbrev main_call3_v1 : Ref sig .tc := ⟨.hbm, 56, rfl⟩
abbrev main_call3_c_0 : Ref sig .tc := ⟨.hbm, 57, rfl⟩
abbrev main_call3_v2 : Ref sig .tc := ⟨.hbm, 58, rfl⟩
abbrev main_call3_v3 : Ref sig .tc := ⟨.hbm, 59, rfl⟩
abbrev main_call3_v4 : Ref sig .tc := ⟨.hbm, 60, rfl⟩
abbrev main_call3_v5 : Ref sig .tc := ⟨.hbm, 61, rfl⟩
abbrev main_call3_c_1 : Ref sig .tc := ⟨.hbm, 62, rfl⟩
abbrev main_call3_c_2 : Ref sig .tc := ⟨.hbm, 63, rfl⟩
abbrev main_call3_v6 : Ref sig .tc := ⟨.hbm, 64, rfl⟩
abbrev main_call3_v7 : Ref sig .tc := ⟨.hbm, 65, rfl⟩
abbrev main_call3_v8 : Ref sig .tc := ⟨.hbm, 66, rfl⟩
abbrev main_call3_v9 : Ref sig .tc := ⟨.hbm, 67, rfl⟩
abbrev main_call3_v10 : Ref sig .tc := ⟨.hbm, 68, rfl⟩
abbrev main_call3_v11 : Ref sig .tc := ⟨.hbm, 69, rfl⟩
abbrev main_call3_c_3 : Ref sig .tc := ⟨.hbm, 70, rfl⟩
abbrev main_call3_v12 : Ref sig .tc := ⟨.hbm, 71, rfl⟩
abbrev main_call3_v13 : Ref sig .tc := ⟨.hbm, 72, rfl⟩
abbrev main_call3_v14 : Ref sig .tc := ⟨.hbm, 73, rfl⟩
abbrev main_call3_cst : Ref sig .tc := ⟨.hbm, 74, rfl⟩
abbrev main_call3_v15 : Ref sig .tc := ⟨.hbm, 75, rfl⟩
abbrev main_v10 : Ref sig .tc := ⟨.hbm, 76, rfl⟩
abbrev main_c_3 : Ref sig .tc := ⟨.hbm, 77, rfl⟩
abbrev main_call4_v0 : Ref sig .tc := ⟨.hbm, 78, rfl⟩
abbrev main_v11 : Ref sig .tc := ⟨.hbm, 79, rfl⟩
abbrev main_c_4 : Ref sig .tc := ⟨.hbm, 80, rfl⟩
abbrev main_call5_v0 : Ref sig .tc := ⟨.hbm, 81, rfl⟩
abbrev main_v12 : Ref sig .tc := ⟨.hbm, 82, rfl⟩
abbrev main_v13 : Ref sig .tc := ⟨.hbm, 83, rfl⟩
abbrev main_v14 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem4_1 : DmaSem sig := 16

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![74], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  ![arg0.toNat]

abbrev stage1_0 : Fin 2 → Memref sig .tc .vmem S8192x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S8192 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S128x256_S128x128_0_0 : S128x256.Slices ![0, 0] S128x128
  transposes_S128x128_S128x128_1_0 : S128x128.Transposes [1, 0] S128x128
  slices_S128x256_S128x128_0_128 : S128x256.Slices ![0, 128] S128x128
  shapeCasts_S128_S1x128 : S128.ShapeCasts S1x128
  shapeCasts_S1_S1x1 : S1.ShapeCasts S1x1
  inb_S2000x128_S2000x128_0_0 : ∀ a, (![0, 0] : Fin 2 → Nat) a + S2000x128.size a ≤ S2000x128.size a
  h_S2000x128 : 0 < S2000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x128_0 : S600000.BroadcastsInDim S600000x128 (![0] : Fin 1 → Fin S600000x128.rank)
  bcast_S_S600000x128 : S_.BroadcastsInDim S600000x128 (![] : Fin 0 → Fin S600000x128.rank)
  pads_S600000x128_S606208x128_062080_000 : S600000x128.Pads (![0, 0] : Fin 2 → Nat) ![6208, 0] ![0, 0] S606208x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  broadcasts_S1x128_S8192x128 : S1x128.Broadcasts S8192x128
  reduces_S8192x128_S8192 : S8192x128.Reduces [1] S8192
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S8192_S8192_0 : ∀ a, (![0] : Fin 1 → Nat) a + S8192.size a ≤ S8192.size a
  h_S8192 : 0 < S8192.numel
  slices_S606208_S600000_0 : S606208.Slices ![0] S600000
  dot_S2000x128_S128x128_S2000x128_1_0_0_1_n_n_wf : DotDims.WF S2000x128 S128x128 S2000x128 [1] [0] [0] [1] [] []
  gather_S50000x128_S600000x1_S600000x128_1_0_n_n_0_1_1128_wf : GatherDims.WF S50000x128 S600000x1 S600000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .f32 = 32 ∨ (Rect.block (s := S50000x128) S2000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x128.size a ≤ S606208x128.size a
  hwx1_0 : ∀ i : grid1.Coords, EltTy.bits .f32 = 32 ∨ (Rect.block (s := S606208x128) S8192x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x128.size a ≤ S606208x128.size a
  hwx1_1 : ∀ i : grid1.Coords, EltTy.bits .f32 = 32 ∨ (Rect.block (s := S606208x128) S8192x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8192.size a ≤ S606208.size a
  hwx1_4 : ∀ i : grid1.Coords, EltTy.bits .f32 = 32 ∨ (Rect.block (s := S606208) S8192.size (cc1_transform_4 i) (hinb1_4 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6_0) S2000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_1) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v11) S8192x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S8192x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S8192.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x128 : Shape := ⟨2, ![50000, 128]⟩
abbrev S128x256 : Shape := ⟨2, ![128, 256]⟩
abbrev S128 : Shape := ⟨1, ![128]⟩
abbrev S1x128 : Shape := ⟨2, ![1, 128]⟩
abbrev S1 : Shape := ⟨1, ![1]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S600000x256 : Shape := ⟨2, ![600000, 256]⟩
abbrev S256x128 : Shape := ⟨2, ![256, 128]⟩
abbrev S128x1 : Shape := ⟨2, ![128, 1]⟩
abbrev S1x1 : Shape := ⟨2, ![1, 1]⟩

abbrev nBuf : Space → Nat
  | .hbm => 40
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x256, .f32⟩
  | .hbm, ⟨2, _⟩ => ⟨S128, .f32⟩
  | .hbm, ⟨3, _⟩ => ⟨S1x128, .f32⟩
  | .hbm, ⟨4, _⟩ => ⟨S1, .f32⟩
  | .hbm, ⟨5, _⟩ => ⟨S600000, .i32⟩
  | .hbm, ⟨6, _⟩ => ⟨S600000, .i32⟩
  | .hbm, ⟨7, _⟩ => ⟨S_, .i32⟩
  | .hbm, ⟨8, _⟩ => ⟨S600000, .i32⟩
  | .hbm, ⟨9, _⟩ => ⟨S600000, .i1⟩
  | .hbm, ⟨10, _⟩ => ⟨S_, .i32⟩
  | .hbm, ⟨11, _⟩ => ⟨S600000, .i32⟩
  | .hbm, ⟨12, _⟩ => ⟨S600000, .i32⟩
  | .hbm, ⟨13, _⟩ => ⟨S600000, .i32⟩
  | .hbm, ⟨14, _⟩ => ⟨S600000x1, .i32⟩
  | .hbm, ⟨15, _⟩ => ⟨S600000x128, .f32⟩
  | .hbm, ⟨16, _⟩ => ⟨S_, .i32⟩
  | .hbm, ⟨17, _⟩ => ⟨S600000, .i32⟩
  | .hbm, ⟨18, _⟩ => ⟨S600000, .i1⟩
  | .hbm, ⟨19, _⟩ => ⟨S_, .i32⟩
  | .hbm, ⟨20, _⟩ => ⟨S600000, .i32⟩
  | .hbm, ⟨21, _⟩ => ⟨S600000, .i32⟩
  | .hbm, ⟨22, _⟩ => ⟨S600000, .i32⟩
  | .hbm, ⟨23, _⟩ => ⟨S600000x1, .i32⟩
  | .hbm, ⟨24, _⟩ => ⟨S600000x128, .f32⟩
  | .hbm, ⟨25, _⟩ => ⟨S600000x256, .f32⟩
  | .hbm, ⟨26, _⟩ => ⟨S256x128, .f32⟩
  | .hbm, ⟨27, _⟩ => ⟨S600000x128, .f32⟩
  | .hbm, ⟨28, _⟩ => ⟨S1x128, .f32⟩
  | .hbm, ⟨29, _⟩ => ⟨S600000x128, .f32⟩
  | .hbm, ⟨30, _⟩ => ⟨S600000x128, .f32⟩
  | .hbm, ⟨31, _⟩ => ⟨S_, .f32⟩
  | .hbm, ⟨32, _⟩ => ⟨S600000x128, .f32⟩
  | .hbm, ⟨33, _⟩ => ⟨S600000x128, .f32⟩
  | .hbm, ⟨34, _⟩ => ⟨S128x1, .f32⟩
  | .hbm, ⟨35, _⟩ => ⟨S600000x1, .f32⟩
  | .hbm, ⟨36, _⟩ => ⟨S1x1, .f32⟩
  | .hbm, ⟨37, _⟩ => ⟨S600000x1, .f32⟩
  | .hbm, ⟨38, _⟩ => ⟨S600000x1, .f32⟩
  | .hbm, ⟨39, _⟩ => ⟨S600000, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_cst : Ref sig .tc := ⟨.hbm, 31, rfl⟩
abbrev main_call0_v0 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  concatenates_S600000x128_S600000x128_S600000x256_d1 : Shape.Concatenates [S600000x128, S600000x128] S600000x256 1
  transposes_S128x256_S256x128_1_0 : S128x256.Transposes [1, 0] S256x128
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  transposes_S1x128_S128x1_1_0 : S1x128.Transposes [1, 0] S128x1
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  shapeCasts_S600000x1_S600000 : S600000x1.ShapeCasts S600000
  gather_S50000x128_S600000x1_S600000x128_1_0_n_n_0_1_1128_wf : GatherDims.WF S50000x128 S600000x1 S600000x128 [1] [0] [] [0] [] 1 ![1, 128]
  dot_S600000x256_S256x128_S600000x128_1_0_0_1_n_n_wf : DotDims.WF S600000x256 S256x128 S600000x128 [1] [0] [0] [1] [] []
  dot_S600000x128_S128x1_S600000x1_1_0_0_1_n_n_wf : DotDims.WF S600000x128 S128x1 S600000x1 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S600000x256_S256x128_S600000x128_1_0_0_1_n_n : DotDims S600000x256 S256x128 S600000x128 where
  lhsContracting := [1]
  rhsContracting := [0]
  lhsNonContracting := [0]
  rhsNonContracting := [1]
  lhsBatch := []
  rhsBatch := []
  wf := dot_S600000x256_S256x128_S600000x128_1_0_0_1_n_n_wf
def dot_S600000x128_S128x1_S600000x1_1_0_0_1_n_n : DotDims S600000x128 S128x1 S600000x1 where
  lhsContracting := [1]
  rhsContracting := [0]
  lhsNonContracting := [0]
  rhsNonContracting := [1]
  lhsBatch := []
  rhsBatch := []
  wf := dot_S600000x128_S128x1_S600000x1_1_0_0_1_n_n_wf

class Facts : Prop extends Facts₀ where

variable [Facts]
-- ==== Proof.EdgeSpec.lean ====
/-
  The edge score both programs compute, written once over plain tables of extended reals.

  A node table `h` (50000 rows of 128 features), the first layer's weights `W1` (128 outputs, 256 inputs: the first 128
  inputs meet the source node's features, the last 128 the destination's), its bias `b1`, the second layer's weights
  `W2` (one output, 128 inputs) and bias `b2`. For an edge from node `s` to node `d` the score is
      Σ_j max(0, (Σ_k h[s,k]·W1[j,k] + b1[j]) + Σ_k h[d,k]·W1[j,128+k]) · W2[0,j] + b2[0].
  The reference contracts the concatenated row (h[s,:], h[d,:]) against all 256 inputs at once and then adds the bias;
  the two spellings differ by splitting a sum of 256 terms into its halves and by moving the bias across the second
  half, which uses only that addition of extended reals is commutative and associative.
-/
import Idealize.ShloMosaic.PureOps.Ideal
import Idealize.ShloMosaic.Lib.ValueIdx

noncomputable section

open scoped BigOperators

namespace Cert.EdgeScore

open Idealize.ShloMosaic Idealize.ShloMosaic.ValueIdx

/-- A table of extended reals with `a` rows and `b` columns. -/
abbrev Tab (a b : Nat) : Type := (⟨2, ![a, b]⟩ : Shape).Idx → EReal
/-- A vector of `a` extended reals. -/
abbrev Row (a : Nat) : Type := (⟨1, ![a]⟩ : Shape).Idx → EReal

/-- The table row a non-negative index word names: the word read as a signed integer, and the last row for a word past
    the table's end. -/
def rowOf (w : BitVec 32) : Fin 50000 := ⟨min w.toInt.toNat 49999, by omega⟩

/-- Input `k` of the first layer's source half, as one of its 256 inputs. -/
def lo (k : Fin 128) : Fin 256 := ⟨k.val, by omega⟩
/-- Input `k` of the first layer's destination half, as one of its 256 inputs. -/
def hi (k : Fin 128) : Fin 256 := ⟨128 + k.val, by omega⟩

/-- A sum over the 256 inputs is the sum over the source half plus the sum over the destination half. -/
theorem sum_halves {M : Type*} [AddCommMonoid M] (f : Fin 256 → M) :
    ∑ k : Fin 256, f k = ∑ k : Fin 128, f (lo k) + ∑ k : Fin 128, f (hi k) := by
  have h := Fin.sum_univ_add (a := 128) (b := 128) (f := fun k : Fin (128 + 128) => f ⟨k.val, k.isLt⟩)
  refine Eq.trans ?_ (h.trans ?_)
  · rfl
  · congr 1

/-- The source node's projection with the bias: output `j` of row `r`. -/
def projA (h : Tab 50000 128) (W1 : Tab 128 256) (b1 : Row 128) (r : Fin 50000) (j : Fin 128) : EReal :=
  (∑ k : Fin 128, h (ix2 r k) * W1 (ix2 j (lo k))) + b1 (ix1 j)
/-- The destination node's projection: output `j` of row `r`. -/
def projB (h : Tab 50000 128) (W1 : Tab 128 256) (r : Fin 50000) (j : Fin 128) : EReal :=
  ∑ k : Fin 128, h (ix2 r k) * W1 (ix2 j (hi k))

/-- The score of an edge from row `s` to row `d`. -/
def score (h : Tab 50000 128) (W1 : Tab 128 256) (b1 : Row 128) (W2 : Tab 1 128) (b2 : Row 1) (s d : Fin 50000) : EReal :=
  (∑ j : Fin 128, max (projA h W1 b1 s j + projB h W1 d j) 0 * W2 (ix2 (0 : Fin 1) j)) + b2 (ix1 (0 : Fin 1))

/-- The hidden unit as the reference spells it — the whole contraction first, the bias last — is the sum of the two
    projections. -/
theorem hidden_eq (h : Tab 50000 128) (W1 : Tab 128 256) (b1 : Row 128) (s d : Fin 50000) (j : Fin 128)
    (he : Fin 256 → EReal) (hlo : ∀ k, he (lo k) = h (ix2 s k)) (hhi : ∀ k, he (hi k) = h (ix2 d k)) :
    (∑ k : Fin 256, he k * W1 (ix2 j k)) + b1 (ix1 j) = projA h W1 b1 s j + projB h W1 d j := by
  unfold projA projB
  rw [sum_halves]
  simp only [hlo, hhi]
  exact add_right_comm _ _ _

end Cert.EdgeScore

end
-- ==== Proof.NodeProjValue.lean ====
/-
  What the node-projection launch leaves in its two output tables, element by element, from the tables it finds at
  its entry: with `X` the 50000×128 input, `P` and `Q` the two 128×128 weight tables and `β` the 1×128 bias row,
      first output  [r, j] = Σ_k X[r,k]·P[k,j] + β[0,j],      second output [r, j] = Σ_k X[r,k]·Q[k,j].
  Each grid point handles 2000 consecutive rows; the 25 points tile the 50000 rows.
-/
import proofs.«419971_j22832046146011_3_alg».proof.Proof.Gen.KernelIdeal.Frame
import proofs.«419971_j22832046146011_3_alg».proof.Proof.EdgeSpec
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.NodeProj

open Cert.KernelIdeal Cert.KernelIdeal.Gen Cert.EdgeScore
open Idealize.ShloMosaic Idealize.ShloMosaic.TcCoe Idealize.ShloMosaic.ValueIdx Idealize.SL.Sem

/-! ## The contraction of a 2000×128 block against a 128×128 table, index by index -/

/-- The left operand's row is the output's row. -/
theorem lhs_row (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- The left operand's column is the summation position. -/
theorem lhs_col (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- The right operand's row is the summation position. -/
theorem rhs_row (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- The right operand's column is the output's column. -/
theorem rhs_col (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The product of a 2000×128 block and a 128×128 table accumulated into zero, at row `p` and column `j`: the sum
    over `k` of the block's `[p,k]` times the table's `[k,j]`. -/
theorem matmul_zero_apply (x : FVec Ideal S2000x128 .f32) (w : FVec Ideal S128x128 .f32) (p : Fin 2000) (j : Fin 128) :
    matmul dot_S2000x128_S128x128_S2000x128_1_0_0_1_n_n none x w (constant (F := Ideal) S2000x128 .f32 0x00000000#32) (ix2 p j)
      = ∑ k : Fin 128, x (ix2 p k) * w (ix2 k j) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p j) ((contrEquiv1 dot_S2000x128_S128x128_S2000x128_1_0_0_1_n_n 128 rfl rfl).symm k) = ix2 p k := funext fun a => Fin.ext (by
    match a with
    | ⟨0, _⟩ => exact lhs_row _ _
    | ⟨1, _⟩ => exact (lhs_col _ _).trans hk)
  have er : dot_S2000x128_S128x128_S2000x128_1_0_0_1_n_n.rhsIdx (ix2 p j) ((contrEquiv1 dot_S2000x128_S128x128_S2000x128_1_0_0_1_n_n 128 rfl rfl).symm k) = ix2 k j := funext fun a => Fin.ext (by
    match a with
    | ⟨0, _⟩ => exact (rhs_row _ _).trans hk
    | ⟨1, _⟩ => exact rhs_col _ _)
  rw [el, er]

/-- A 1×128 row spread over 2000 rows reads the row's column everywhere. -/
theorem spread_row_apply (x : FVec Ideal S1x128 .f32) (p : Fin 2000) (j : Fin 128) :
    broadcastTo S2000x128 x broadcasts_S1x128_S2000x128 (ix2 p j) = x (ix2 (0 : Fin 1) j) :=
  broadcastTo_apply x broadcasts_S1x128_S2000x128 (ix2 p j) (ix2 (0 : Fin 1) j) (fun a => by
    match a with
    | ⟨0, _⟩ => rfl
    | ⟨1, _⟩ => rfl)

/-- What a grid point stores into its block of the first output, at row `p` and column `j` of the block. -/
theorem pay1_apply (x0 : Vec Ideal S2000x128 .f32) (x1 : Vec Ideal S128x128 .f32) (x3 : Vec Ideal S1x128 .f32)
    (p : Fin 2000) (j : Fin 128) :
    k0_pay1 (F := Ideal) x0 x1 x3 (ix2 p j)
      = (∑ k : Fin 128, x0 (ix2 p k) * x1 (ix2 k j)) + x3 (ix2 (0 : Fin 1) j) := by
  unfold k0_pay1
  rw [addf_apply, shapeCast_self, shapeCast_self, matmul_zero_apply, spread_row_apply]

/-- What a grid point stores into its block of the second output, at row `p` and column `j` of the block. -/
theorem pay2_apply (x0 : Vec Ideal S2000x128 .f32) (x2 : Vec Ideal S128x128 .f32) (p : Fin 2000) (j : Fin 128) :
    k0_pay2 (F := Ideal) x0 x2 (ix2 p j) = ∑ k : Fin 128, x0 (ix2 p k) * x2 (ix2 k j) := by
  unfold k0_pay2
  rw [shapeCast_self, matmul_zero_apply]

/-! ## The two outputs as functions of the tables the launch finds -/

/-- The product of the node table and a weight table plus the bias row, as one table. -/
def affine (X : Tab 50000 128) (P : Tab 128 128) (β : Tab 1 128) : Tab 50000 128 :=
  fun i => (∑ k : Fin 128, X (ix2 (i 0) k) * P (ix2 k (i 1))) + β (ix2 (0 : Fin 1) (i 1))
/-- The product of the node table and a weight table, as one table. -/
def linear (X : Tab 50000 128) (Q : Tab 128 128) : Tab 50000 128 :=
  fun i => ∑ k : Fin 128, X (ix2 (i 0) k) * Q (ix2 k (i 1))

/-- The first of them at row `r` and column `j`. -/
theorem affine_apply (X : Tab 50000 128) (P : Tab 128 128) (β : Tab 1 128) (r : Fin 50000) (j : Fin 128) :
    affine X P β (ix2 r j) = (∑ k : Fin 128, X (ix2 r k) * P (ix2 k j)) + β (ix2 (0 : Fin 1) j) := rfl
/-- The second of them at row `r` and column `j`. -/
theorem linear_apply (X : Tab 50000 128) (Q : Tab 128 128) (r : Fin 50000) (j : Fin 128) :
    linear X Q (ix2 r j) = ∑ k : Fin 128, X (ix2 r k) * Q (ix2 k j) := rfl

/-- A block that holds rows `2000·b …` of `X`, against the whole of `P` and `β`: what the grid point stores at a
    position of the block is the affine table at the matching row of the whole. -/
theorem pay1_block (X : Tab 50000 128) (P : Tab 128 128) (β : Tab 1 128)
    (x0 : Vec Ideal S2000x128 .f32) (x1 : Vec Ideal S128x128 .f32) (x3 : Vec Ideal S1x128 .f32) (b : Nat)
    (h0 : ∀ (y : S2000x128.Idx) (i : S50000x128.Idx), (i 0).val = b * 2000 + (y 0).val → (i 1).val = (y 1).val → x0 y = X i)
    (h1 : ∀ z : S128x128.Idx, x1 z = P z) (h3 : ∀ z : S1x128.Idx, x3 z = β z)
    (y : S2000x128.Idx) (i : S50000x128.Idx) (hi0 : (i 0).val = b * 2000 + (y 0).val) (hi1 : (i 1).val = (y 1).val) :
    k0_pay1 (F := Ideal) x0 x1 x3 y = affine X P β i := by
  obtain ⟨p, q, rfl⟩ : ∃ (p : Fin 2000) (q : Fin 128), y = ix2 p q := ⟨y 0, y 1, eq_ix2 y⟩
  obtain ⟨r, s, rfl⟩ : ∃ (r : Fin 50000) (s : Fin 128), i = ix2 r s := ⟨i 0, i 1, eq_ix2 i⟩
  have hs : s = q := Fin.ext hi1
  subst hs
  rw [pay1_apply, affine_apply, h3]
  refine congrArg (· + β (ix2 (0 : Fin 1) s)) (Finset.sum_congr rfl fun k _ => ?_)
  rw [h0 (ix2 p k) (ix2 r k) hi0 rfl, h1]

/-- The same for the second output. -/
theorem pay2_block (X : Tab 50000 128) (Q : Tab 128 128)
    (x0 : Vec Ideal S2000x128 .f32) (x2 : Vec Ideal S128x128 .f32) (b : Nat)
    (h0 : ∀ (y : S2000x128.Idx) (i : S50000x128.Idx), (i 0).val = b * 2000 + (y 0).val → (i 1).val = (y 1).val → x0 y = X i)
    (h2 : ∀ z : S128x128.Idx, x2 z = Q z)
    (y : S2000x128.Idx) (i : S50000x128.Idx) (hi0 : (i 0).val = b * 2000 + (y 0).val) (hi1 : (i 1).val = (y 1).val) :
    k0_pay2 (F := Ideal) x0 x2 y = linear X Q i := by
  obtain ⟨p, q, rfl⟩ : ∃ (p : Fin 2000) (q : Fin 128), y = ix2 p q := ⟨y 0, y 1, eq_ix2 y⟩
  obtain ⟨r, s, rfl⟩ : ∃ (r : Fin 50000) (s : Fin 128), i = ix2 r s := ⟨i 0, i 1, eq_ix2 i⟩
  have hs : s = q := Fin.ext hi1
  subst hs
  rw [pay2_apply, linear_apply]
  refine Finset.sum_congr rfl fun k _ => ?_
  rw [h0 (ix2 p k) (ix2 r k) hi0 rfl, h2]

/-! ## From the blocks to the whole tables -/

variable (V : (c : Dev nD) → (b : Ref sig .tc) → Buf (Elt Ideal) ((c : Thread nD τ).loc b))

/-- The tables the launch finds and the two it leaves, each with its literal type: the node table, the two weight
    tables, the bias row, and the two outputs after the last grid point. -/
abbrev nodes (c : Dev nD) : Tab 50000 128 := V c main_arg0
abbrev wSrc (c : Dev nD) : Tab 128 128 := V c main_v1
abbrev wDst (c : Dev nD) : Tab 128 128 := V c main_v3
abbrev bias (c : Dev nD) : Tab 1 128 := V c main_v4
abbrev outA (c : Dev nD) : Tab 50000 128 := (dat0 (F := Ideal) V c).arrAt 4 cfg0.N
abbrev outB (c : Dev nD) : Tab 50000 128 := (dat0 (F := Ideal) V c).arrAt 5 cfg0.N

/-- The two zero offsets, as the constant function. -/
theorem zero_offsets : (![0, 0] : Fin 2 → Nat) = fun _ => 0 := funext fun a => by fin_cases a <;> rfl

/-- Where each window's block sits at grid point `t`: the node table's and the two outputs' at block row `t`, the
    weight tables' and the bias row's at the origin. -/
theorem block_positions : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The node table's block at point `t` holds rows `2000·t …` of the table. -/
theorem nodes_block (c : Dev nD) (t : Fin cfg0.N) (y : S2000x128.Idx) (i : S50000x128.Idx)
    (hi0 : (i 0).val = t.val * 2000 + (y 0).val) (hi1 : (i 1).val = (y 1).val) :
    (iblk0 V c 0 t : Vec Ideal S2000x128 .f32) y = nodes V c i := by
  obtain ⟨e00, e01, -⟩ := block_positions t
  show V c main_arg0 (((cfg0.win 0).blk t).view.emb y) = V c main_arg0 i
  refine congrArg _ (funext fun a => Fin.ext ?_)
  match a with
  | ⟨0, _⟩ => show win0_0.index t (0 : Fin 2) * 2000 + 1 * (y 0).val = (i 0).val; omega
  | ⟨1, _⟩ => show win0_0.index t (1 : Fin 2) * 128 + 1 * (y 1).val = (i 1).val; omega

/-- The first weight table's block at every point is the whole table. -/
theorem wSrc_block (c : Dev nD) (t : Fin cfg0.N) (z : S128x128.Idx) :
    (iblk0 V c 1 t : Vec Ideal S128x128 .f32) z = wSrc V c z := by
  obtain ⟨-, -, e10, e11, -⟩ := block_positions t
  show V c main_v1 (((cfg0.win 1).blk t).view.emb z) = V c main_v1 z
  refine congrArg _ (funext fun a => Fin.ext ?_)
  match a with
  | ⟨0, _⟩ => show win0_1.index t (0 : Fin 2) * 128 + 1 * (z 0).val = (z 0).val; omega
  | ⟨1, _⟩ => show win0_1.index t (1 : Fin 2) * 128 + 1 * (z 1).val = (z 1).val; omega

/-- The second weight table's block at every point is the whole table. -/
theorem wDst_block (c : Dev nD) (t : Fin cfg0.N) (z : S128x128.Idx) :
    (iblk0 V c 2 t : Vec Ideal S128x128 .f32) z = wDst V c z := by
  obtain ⟨-, -, -, -, e20, e21, -⟩ := block_positions t
  show V c main_v3 (((cfg0.win 2).blk t).view.emb z) = V c main_v3 z
  refine congrArg _ (funext fun a => Fin.ext ?_)
  match a with
  | ⟨0, _⟩ => show win0_2.index t (0 : Fin 2) * 128 + 1 * (z 0).val = (z 0).val; omega
  | ⟨1, _⟩ => show win0_2.index t (1 : Fin 2) * 128 + 1 * (z 1).val = (z 1).val; omega

/-- The bias row's block at every point is the whole row. -/
theorem bias_block (c : Dev nD) (t : Fin cfg0.N) (z : S1x128.Idx) :
    (iblk0 V c 3 t : Vec Ideal S1x128 .f32) z = bias V c z := by
  obtain ⟨-, -, -, -, -, -, e30, e31, -⟩ := block_positions t
  show V c main_v4 (((cfg0.win 3).blk t).view.emb z) = V c main_v4 z
  refine congrArg _ (funext fun a => Fin.ext ?_)
  match a with
  | ⟨0, _⟩ => show win0_3.index t (0 : Fin 2) * 1 + 1 * (z 0).val = (z 0).val; omega
  | ⟨1, _⟩ => show win0_3.index t (1 : Fin 2) * 128 + 1 * (z 1).val = (z 1).val; omega

/-- What point `t` writes back to the first output is block `t` of the affine table. -/
theorem flushedA_eq (c : Dev nD) (t : Fin cfg0.N) :
    (dat0 (F := Ideal) V c).flushed 4 t
      = ((cfg0.win 4).blk t).view.read (Elt Ideal) (affine (nodes V c) (wSrc V c) (bias V c)) := by
  show (cfg0.win 4).cut (grid0.coords t) ((dat0 (F := Ideal) V c).after 4 t) = _
  rw [after0_4]
  unfold out0_4
  rw [View.canon_unit_zero zero_offsets]
  simp only [View.ld_unit_zero (S := S2000x128) zero_offsets, View.ld_unit_zero (S := S128x128) zero_offsets,
    View.ld_unit_zero (S := S1x128) zero_offsets]
  obtain ⟨-, -, -, -, -, -, -, -, e40, e41, -⟩ := block_positions t
  funext y
  show k0_pay1 (F := Ideal) (iblk0 V c 0 t) (iblk0 V c 1 t) (iblk0 V c 3 t) ((cfg0.win 4).xinj (grid0.coords t) y)
      = affine (nodes V c) (wSrc V c) (bias V c) (((cfg0.win 4).blk t).view.emb y)
  refine pay1_block (nodes V c) (wSrc V c) (bias V c) _ _ _ t.val (nodes_block V c t) (wSrc_block V c t) (bias_block V c t) _ _ ?_ ?_
  · show win0_4.index t (0 : Fin 2) * 2000 + 1 * (y 0).val = t.val * 2000 + (y 0).val; omega
  · show win0_4.index t (1 : Fin 2) * 128 + 1 * (y 1).val = (y 1).val; omega

/-- What point `t` writes back to the second output is block `t` of the linear table. -/
theorem flushedB_eq (c : Dev nD) (t : Fin cfg0.N) :
    (dat0 (F := Ideal) V c).flushed 5 t
      = ((cfg0.win 5).blk t).view.read (Elt Ideal) (linear (nodes V c) (wDst V c)) := by
  show (cfg0.win 5).cut (grid0.coords t) ((dat0 (F := Ideal) V c).after 5 t) = _
  rw [after0_5]
  unfold out0_5
  rw [View.canon_unit_zero zero_offsets]
  simp only [View.ld_unit_zero (S := S2000x128) zero_offsets, View.ld_unit_zero (S := S128x128) zero_offsets]
  obtain ⟨-, -, -, -, -, -, -, -, -, -, e50, e51⟩ := block_positions t
  funext y
  show k0_pay2 (F := Ideal) (iblk0 V c 0 t) (iblk0 V c 2 t) ((cfg0.win 5).xinj (grid0.coords t) y)
      = linear (nodes V c) (wDst V c) (((cfg0.win 5).blk t).view.emb y)
  refine pay2_block (nodes V c) (wDst V c) _ _ t.val (nodes_block V c t) (wDst_block V c t) _ _ ?_ ?_
  · show win0_5.index t (0 : Fin 2) * 2000 + 1 * (y 0).val = t.val * 2000 + (y 0).val; omega
  · show win0_5.index t (1 : Fin 2) * 128 + 1 * (y 1).val = (y 1).val; omega

/-- An index of the first output is in point `t`'s block iff each coordinate is in the block's range on its axis. -/
theorem mem_blockA (t : Fin cfg0.N) (i : S50000x128.Idx) :
    i ∈ ((cfg0.win 4).blk t).view.set ↔ ∀ a : Fin 2, win0_4.index t a * S2000x128.size a ≤ (i a).val ∧ (i a).val < win0_4.index t a * S2000x128.size a + S2000x128.size a := by
  show i ∈ ((View.whole main_v6_0).slice (win0_4.rect t)).set ↔ _
  rw [View.set_slice_whole, Rect.mem_set_unit]
  exact Iff.rfl

/-- The same for the second output. -/
theorem mem_blockB (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v6_1).slice (win0_5.rect t)).set ↔ _
  rw [View.set_slice_whole, Rect.mem_set_unit]
  exact Iff.rfl

/-- The grid point whose block holds row `r`: `r / 2000`. -/
def pointOf (i : S50000x128.Idx) : Fin cfg0.N :=
  ⟨(i 0).val / 2000, by have h := idx2_lt0 i; rw [show cfg0.N = 25 from N_0]; omega⟩

/-- Every index of the first output is in the block of the point its row names. -/
theorem coverA (i : S50000x128.Idx) :
    ∃ t : Fin cfg0.N, (cfg0.win 4).flush t = true ∧ i ∈ ((cfg0.win 4).blk t).view.set := by
  refine ⟨pointOf i, flush0_4 _, ?_⟩
  rw [mem_blockA]
  obtain ⟨-, -, -, -, -, -, -, -, e40, e41, -⟩ := block_positions (pointOf i)
  have ht : (pointOf i).val = (i 0).val / 2000 := rfl
  have h0 := idx2_lt0 i
  have h1 := idx2_lt1 i
  intro a
  match a with
  | ⟨0, _⟩ => show win0_4.index (pointOf i) (0 : Fin 2) * 2000 ≤ (i 0).val ∧ (i 0).val < win0_4.index (pointOf i) (0 : Fin 2) * 2000 + 2000; omega
  | ⟨1, _⟩ => show win0_4.index (pointOf i) (1 : Fin 2) * 128 ≤ (i 1).val ∧ (i 1).val < win0_4.index (pointOf i) (1 : Fin 2) * 128 + 128; omega

/-- Every index of the second output is in the block of the point its row names. -/
theorem coverB (i : S50000x128.Idx) :
    ∃ t : Fin cfg0.N, (cfg0.win 5).flush t = true ∧ i ∈ ((cfg0.win 5).blk t).view.set := by
  refine ⟨pointOf i, flush0_5 _, ?_⟩
  rw [mem_blockB]
  obtain ⟨-, -, -, -, -, -, -, -, -, -, e50, e51⟩ := block_positions (pointOf i)
  have ht : (pointOf i).val = (i 0).val / 2000 := rfl
  have h0 := idx2_lt0 i
  have h1 := idx2_lt1 i
  intro a
  match a with
  | ⟨0, _⟩ => show win0_5.index (pointOf i) (0 : Fin 2) * 2000 ≤ (i 0).val ∧ (i 0).val < win0_5.index (pointOf i) (0 : Fin 2) * 2000 + 2000; omega
  | ⟨1, _⟩ => show win0_5.index (pointOf i) (1 : Fin 2) * 128 ≤ (i 1).val ∧ (i 1).val < win0_5.index (pointOf i) (1 : Fin 2) * 128 + 128; omega

/-- The first output after the launch is the affine table of the tables found. -/
theorem outA_eq (c : Dev nD) : outA V c = affine (nodes V c) (wSrc V c) (bias V c) :=
  (dat0 (F := Ideal) V c).arrAt_eq_of_cover 4 (affine (nodes V c) (wSrc V c) (bias V c))
    (fun t _ => flushedA_eq V c t) coverA

/-- The second output after the launch is the linear table of the tables found. -/
theorem outB_eq (c : Dev nD) : outB V c = linear (nodes V c) (wDst V c) :=
  (dat0 (F := Ideal) V c).arrAt_eq_of_cover 5 (linear (nodes V c) (wDst V c))
    (fun t _ => flushedB_eq V c t) coverB

/-- The first output table after the launch, at row `r` and column `j`. -/
theorem outA_apply (c : Dev nD) (r : Fin 50000) (j : Fin 128) :
    outA V c (ix2 r j)
      = (∑ k : Fin 128, nodes V c (ix2 r k) * wSrc V c (ix2 k j)) + bias V c (ix2 (0 : Fin 1) j) := by
  rw [outA_eq]
  rfl

/-- The second output table after the launch, at row `r` and column `j`. -/
theorem outB_apply (c : Dev nD) (r : Fin 50000) (j : Fin 128) :
    outB V c (ix2 r j) = ∑ k : Fin 128, nodes V c (ix2 r k) * wDst V c (ix2 k j) := by
  rw [outB_eq]
  rfl

end Cert.KernelIdeal.NodeProj

end
-- ==== Proof.EdgeMlpValue.lean ====
/-
  What the per-edge launch leaves in its output vector, element by element, from the tables it finds at its entry:
  with `S` and `D` the two 606208×128 tables of gathered projections, `ω` the 1×128 weight row and `γ` the 1×1 bias,
      output[e] = Σ_j max(S[e,j] + D[e,j], 0)·ω[0,j] + γ[0,0].
  Each grid point handles 8192 consecutive edges; the 74 points tile the 606208 padded edges.
-/
import proofs.«419971_j22832046146011_3_alg».proof.Proof.Gen.KernelIdeal.Frame
import proofs.«419971_j22832046146011_3_alg».proof.Proof.EdgeSpec
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.EdgeMlp

open Cert.KernelIdeal Cert.KernelIdeal.Gen Cert.EdgeScore
open Idealize.ShloMosaic Idealize.ShloMosaic.TcCoe Idealize.ShloMosaic.ValueIdx Idealize.SL.Sem

variable (V : (c : Dev nD) → (b : Ref sig .tc) → Buf (Elt Ideal) ((c : Thread nD τ).loc b))

/-- The tables the launch finds and the vector it leaves, each with its literal type: the two tables of gathered
    projections, the weight row, the 1×1 bias, and the output after the last grid point. -/
abbrev srcRows (c : Dev nD) : Tab 606208 128 := V c main_v11
abbrev dstRows (c : Dev nD) : Tab 606208 128 := V c main_v12
abbrev w2 (c : Dev nD) : Tab 1 128 := V c main_arg3
abbrev b2 (c : Dev nD) : Tab 1 1 := V c main_v5
abbrev out (c : Dev nD) : Row 606208 := (dat1 (F := Ideal) V c).arrAt 4 cfg1.N

/-- The sum over the 128 lanes of a row of an 8192×128 block, read at row `p`. -/
theorem laneSum_apply (src : FVec Ideal S8192x128 .f32) (h : S8192x128.Reduces [1] S8192) (hφ : FKind.Formats .f32)
    (hacc : (0x00000000#32 : BitVec 32) = FKind.add.neutral .f32 hφ) (p : Fin 8192) :
    multiReduction (F := Ideal) .add [1] S8192 src 0x00000000#32 h hφ hacc (ix1 p) = ∑ k : Fin 128, src (ix2 p k) := by
  refine (Ideal.multiReduction_add_single src 0x00000000#32 h hφ hacc (ix1 p)).trans ?_
  refine Finset.sum_congr rfl fun k _ => congrArg src ?_
  funext a; apply Fin.ext
  match a with
  | ⟨0, _⟩ => rfl
  | ⟨1, _⟩ => rfl

/-- The weight row broadcast down the 8192 rows, read at `(p, j)`, is the row's entry `j`. -/
theorem rowBroadcast_apply (x2 : Vec Ideal S1x128 .f32) (h : S1x128.Broadcasts S8192x128) (p : Fin 8192) (j : Fin 128) :
    broadcastTo S8192x128 x2 h (ix2 p j) = x2 (ix2 (0 : Fin 1) j) := by
  refine broadcastTo_apply x2 h (ix2 p j) (ix2 (0 : Fin 1) j) fun a => ?_
  match a with
  | ⟨0, _⟩ => rfl
  | ⟨1, _⟩ => rfl

/-- The one entry of a 1×1 block, extracted at position (0, 0). -/
theorem extract_one (x3 : Vec Ideal S1x1 .f32) (h : ∀ a, (![0, 0] : Fin 2 → Nat) a < S1x1.size a) :
    extractAt ![0, 0] x3 h = x3 (ix2 (0 : Fin 1) (0 : Fin 1)) := by
  unfold extractAt
  refine congrArg x3 ?_
  funext a; apply Fin.ext
  match a with
  | ⟨0, _⟩ => rfl
  | ⟨1, _⟩ => rfl

/-- The body's value at row `p` of its block: the rectified sum of the two rows against the weight row, plus the bias. -/
theorem pay_apply (x0 x1 : Vec Ideal S8192x128 .f32) (x2 : Vec Ideal S1x128 .f32) (x3 : Vec Ideal S1x1 .f32) (p : Fin 8192) :
    k1_pay1 (F := Ideal) x0 x1 x2 x3 (ix1 p)
      = (∑ j : Fin 128, max (x0 (ix2 p j) + x1 (ix2 p j)) 0 * x2 (ix2 (0 : Fin 1) j)) + x3 (ix2 (0 : Fin 1) (0 : Fin 1)) := by
  unfold k1_pay1
  rw [addf_apply, broadcast_apply, extract_one]
  congr 1
  refine (laneSum_apply _ _ _ _ p).trans ?_
  refine Finset.sum_congr rfl fun j _ => ?_
  rw [mulf_apply, maximumf_apply, addf_apply, broadcast_apply, shapeCast_self, shapeCast_self, rowBroadcast_apply]
  show max (x0 (ix2 p j) + x1 (ix2 p j)) (Ideal.ofBits .f32 0x00000000#32) * x2 (ix2 (0 : Fin 1) j) = _
  rw [Ideal.ofBits_zero_f32]

/-- The value at padded edge `e`, from the two tables, the weight row and the bias. -/
def edgeAt (S D : Tab 606208 128) (ω : Tab 1 128) (γ : Tab 1 1) (e : Fin 606208) : EReal :=
  (∑ j : Fin 128, max (S (ix2 e j) + D (ix2 e j)) 0 * ω (ix2 (0 : Fin 1) j)) + γ (ix2 (0 : Fin 1) (0 : Fin 1))

/-- The whole output vector as one function of the two tables, the weight row and the bias. -/
def edgeOut (S D : Tab 606208 128) (ω : Tab 1 128) (γ : Tab 1 1) : Row 606208 :=
  fun i => edgeAt S D ω γ (i 0)

/-- The block index of each window at grid point `t`: the two tables' and the output's blocks move with `t` along the
    rows, the weight row and the bias stay at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = t.val :=
  (by decide +kernel : ∀ t : Fin grid1.N, _)

/-- Row `p` of the source table's block at point `t` is row `8192·t + p` of the table. -/
theorem srcBlock_apply (c : Dev nD) (t : Fin cfg1.N) (p : Fin 8192) (j : Fin 128) (r : Fin 606208)
    (hr : r.val = t.val * 8192 + p.val) :
    (iblk1 (F := Ideal) V c 0 t : Vec Ideal S8192x128 .f32) (ix2 p j) = srcRows V c (ix2 r j) := by
  obtain ⟨e0, e1, -⟩ := idx_facts t
  unfold iblk1
  rw [View.read_apply]
  show V c main_v11 _ = V c main_v11 _
  congr 1
  funext a
  apply Fin.ext
  match a with
  | ⟨0, _⟩ => show win1_0.index t (0 : Fin 2) * 8192 + 1 * p.val = r.val; rw [e0, hr]; omega
  | ⟨1, _⟩ => show win1_0.index t (1 : Fin 2) * 128 + 1 * j.val = j.val; rw [e1]; omega

/-- Row `p` of the destination table's block at point `t` is row `8192·t + p` of the table. -/
theorem dstBlock_apply (c : Dev nD) (t : Fin cfg1.N) (p : Fin 8192) (j : Fin 128) (r : Fin 606208)
    (hr : r.val = t.val * 8192 + p.val) :
    (iblk1 (F := Ideal) V c 1 t : Vec Ideal S8192x128 .f32) (ix2 p j) = dstRows V c (ix2 r j) := by
  obtain ⟨-, -, e0, e1, -⟩ := idx_facts t
  unfold iblk1
  rw [View.read_apply]
  show V c main_v12 _ = V c main_v12 _
  congr 1
  funext a
  apply Fin.ext
  match a with
  | ⟨0, _⟩ => show win1_1.index t (0 : Fin 2) * 8192 + 1 * p.val = r.val; rw [e0, hr]; omega
  | ⟨1, _⟩ => show win1_1.index t (1 : Fin 2) * 128 + 1 * j.val = j.val; rw [e1]; omega

/-- The weight row's block at every point is the weight row. -/
theorem wBlock_apply (c : Dev nD) (t : Fin cfg1.N) (j : Fin 128) :
    (iblk1 (F := Ideal) V c 2 t : Vec Ideal S1x128 .f32) (ix2 (0 : Fin 1) j) = w2 V c (ix2 (0 : Fin 1) j) := by
  obtain ⟨-, -, -, -, e0, e1, -⟩ := idx_facts t
  unfold iblk1
  rw [View.read_apply]
  show V c main_arg3 _ = V c main_arg3 _
  congr 1
  funext a
  apply Fin.ext
  match a with
  | ⟨0, _⟩ => show win1_2.index t (0 : Fin 2) * 1 + 1 * 0 = 0; rw [e0]
  | ⟨1, _⟩ => show win1_2.index t (1 : Fin 2) * 128 + 1 * j.val = j.val; rw [e1]; omega

/-- The bias's block at every point is the bias. -/
theorem bBlock_apply (c : Dev nD) (t : Fin cfg1.N) :
    (iblk1 (F := Ideal) V c 3 t : Vec Ideal S1x1 .f32) (ix2 (0 : Fin 1) (0 : Fin 1)) = b2 V c (ix2 (0 : Fin 1) (0 : Fin 1)) := by
  obtain ⟨-, -, -, -, -, -, e0, e1, -⟩ := idx_facts t
  unfold iblk1
  rw [View.read_apply]
  show V c main_v5 _ = V c main_v5 _
  congr 1
  funext a
  apply Fin.ext
  match a with
  | ⟨0, _⟩ => show win1_3.index t (0 : Fin 2) * 1 + 1 * 0 = 0; rw [e0]
  | ⟨1, _⟩ => show win1_3.index t (1 : Fin 2) * 1 + 1 * 0 = 0; rw [e1]

/-- What the body computes at row `p` of point `t`'s block is the value at padded edge `8192·t + p`. -/
theorem point_value (c : Dev nD) (t : Fin cfg1.N) (p : Fin 8192) (r : Fin 606208) (hr : r.val = t.val * 8192 + p.val) :
    k1_pay1 (F := Ideal) (iblk1 V c 0 t) (iblk1 V c 1 t) (iblk1 V c 2 t) (iblk1 V c 3 t) (ix1 p)
      = edgeAt (srcRows V c) (dstRows V c) (w2 V c) (b2 V c) r := by
  refine (pay_apply _ _ _ _ p).trans ?_
  unfold edgeAt
  refine congrArg₂ (fun a b : EReal => a + b) (Finset.sum_congr rfl fun j _ => ?_) (bBlock_apply V c t)
  rw [srcBlock_apply V c t p j r hr, dstBlock_apply V c t p j r hr, wBlock_apply V c t j]

/-- The zero offset of a rank-1 block, as the constant function. -/
theorem zeroOff1 : (![0] : Fin 1 → Nat) = fun _ => 0 := funext fun a => by fin_cases a; rfl
/-- The zero offsets of a rank-2 block, as the constant function. -/
theorem zeroOff2 : (![0, 0] : Fin 2 → Nat) = fun _ => 0 := funext fun a => by fin_cases a <;> rfl

/-- What point `t` writes back is block `t` of the whole output vector `edgeOut` of the four tables. -/
theorem flushed_eq (c : Dev nD) (t : Fin cfg1.N) :
    (dat1 (F := Ideal) V c).flushed 4 t
      = ((cfg1.win 4).blk t).view.read (Elt Ideal) (edgeOut (srcRows V c) (dstRows V c) (w2 V c) (b2 V c)) := by
  show (cfg1.win 4).cut (grid1.coords t) ((dat1 (F := Ideal) V c).after 4 t) = _
  rw [after1_4]
  unfold out1_4
  rw [View.canon_unit_zero zeroOff1]
  simp only [View.ld_unit_zero (S := S8192x128) zeroOff2, View.ld_unit_zero (S := S1x128) zeroOff2,
    View.ld_unit_zero (S := S1x1) zeroOff2]
  obtain ⟨-, -, -, -, -, -, -, -, e4⟩ := idx_facts t
  funext y
  have hy : (y 0).val < 8192 := (y 0).isLt
  have ht : t.val < 74 := Nat.lt_of_lt_of_eq t.isLt N_1
  have ey : (cfg1.win 4).xinj (grid1.coords t) y = ix1 (⟨(y 0).val, hy⟩ : Fin 8192) := by
    funext a
    match a with
    | ⟨0, _⟩ => rfl
  have ei : ((cfg1.win 4).blk t).view.emb y = ix1 (⟨t.val * 8192 + (y 0).val, by omega⟩ : Fin 606208) := by
    funext a
    apply Fin.ext
    match a with
    | ⟨0, _⟩ => show win1_4.index t (0 : Fin 1) * 8192 + 1 * (y 0).val = t.val * 8192 + (y 0).val; rw [e4]; omega
  refine Eq.trans (congrArg (k1_pay1 (F := Ideal) (iblk1 V c 0 t) (iblk1 V c 1 t) (iblk1 V c 2 t) (iblk1 V c 3 t)) ey) ?_
  refine (point_value V c t ⟨(y 0).val, hy⟩ ⟨t.val * 8192 + (y 0).val, by omega⟩ rfl).trans ?_
  exact (congrArg (edgeOut (srcRows V c) (dstRows V c) (w2 V c) (b2 V c)) ei).symm

/-- A padded edge is in point `t`'s block iff it lies in the block's range of 8192 consecutive edges. -/
theorem mem_blk (t : Fin cfg1.N) (i : S606208.Idx) :
    i ∈ ((cfg1.win 4).blk t).view.set
      ↔ ∀ a : Fin 1, win1_4.index t a * S8192.size a ≤ (i a).val ∧ (i a).val < win1_4.index t a * S8192.size a + S8192.size a := by
  show i ∈ ((View.whole main_v13).slice (win1_4.rect t)).set ↔ _
  rw [View.set_slice_whole, Rect.mem_set_unit]
  exact Iff.rfl

/-- Every padded edge `e` is in the block of the point `⌊e / 8192⌋`, which writes back. -/
theorem covered (i : S606208.Idx) :
    ∃ t : Fin cfg1.N, (cfg1.win 4).flush t = true ∧ i ∈ ((cfg1.win 4).blk t).view.set := by
  have hi : (i 0).val < 606208 := (i 0).isLt
  have hq : (i 0).val / 8192 < 74 := by omega
  refine ⟨⟨(i 0).val / 8192, Nat.lt_of_lt_of_eq hq N_1.symm⟩, flush1_4 _, ?_⟩
  rw [mem_blk]
  obtain ⟨-, -, -, -, -, -, -, -, e4⟩ := idx_facts ⟨(i 0).val / 8192, Nat.lt_of_lt_of_eq hq N_1.symm⟩
  intro a
  match a with
  | ⟨0, _⟩ =>
    show win1_4.index ⟨(i 0).val / 8192, Nat.lt_of_lt_of_eq hq N_1.symm⟩ (0 : Fin 1) * 8192 ≤ (i 0).val
      ∧ (i 0).val < win1_4.index ⟨(i 0).val / 8192, Nat.lt_of_lt_of_eq hq N_1.symm⟩ (0 : Fin 1) * 8192 + 8192
    rw [e4]
    show (i 0).val / 8192 * 8192 ≤ (i 0).val ∧ (i 0).val < (i 0).val / 8192 * 8192 + 8192
    omega

/-- The output vector after the launch is `edgeOut` of the four tables the launch finds. -/
theorem out_eq (c : Dev nD) : out V c = edgeOut (srcRows V c) (dstRows V c) (w2 V c) (b2 V c) :=
  (dat1 (F := Ideal) V c).arrAt_eq_of_cover 4 (edgeOut (srcRows V c) (dstRows V c) (w2 V c) (b2 V c))
    (fun t _ => flushed_eq V c t) covered

/-- The output vector after the launch, at padded edge `e`. -/
theorem out_apply (c : Dev nD) (e : Fin 606208) :
    out V c (ix1 e)
      = (∑ j : Fin 128, max (srcRows V c (ix2 e j) + dstRows V c (ix2 e j)) 0 * w2 V c (ix2 (0 : Fin 1) j))
        + b2 V c (ix2 (0 : Fin 1) (0 : Fin 1)) := by
  exact congrFun (out_eq V c) (ix1 e)

end Cert.KernelIdeal.EdgeMlp

end
-- ==== Proof.HostLayout.lean ====
/-
  The host operations around the two launches that only re-lay data, read at an index, at the ideal instance.
  Before the first launch: the two halves of the first layer's weights are cut out of the 128×256 table and transposed
  (so entry [k, j] of a half is weight [j, k] or [j, 128 + k] of the table), the first bias becomes a 1×128 row and the
  second bias a 1×1 table. No host operation between the launches writes the node table, the second layer's weights or
  that 1×1 table. After the second launch the first 600000 entries of the padded result are kept.
-/
import proofs.«419971_j22832046146011_3_alg».proof.Proof.Gen.KernelIdeal.Frame
import proofs.«419971_j22832046146011_3_alg».proof.Proof.EdgeSpec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.HostLayout

open Cert.KernelIdeal Cert.KernelIdeal.Gen Cert.EdgeScore
open Idealize.ShloMosaic Idealize.ShloMosaic.TcCoe Idealize.ShloMosaic.ValueIdx Idealize.SL.Sem

variable (m : (ℓ : Loc nD τ sig) → Buf (Elt Ideal) ℓ) (ρ : Dev nD → PrngReg)

/-- No host operation before the first launch writes the node table. -/
theorem W1_arg0 (c : Dev nD) :
    W1 m ρ c (Proc.devRef .tc main_arg0) = W0 m ρ c (Proc.devRef .tc main_arg0) :=
  StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The first launch finds the node table as launched. -/
theorem V1_arg0 (c : Dev nD) :
    (V1 m ρ c main_arg0 : S50000x128.Idx → EReal) = m ((c : Thread nD τ).loc main_arg0) :=
  (W1_arg0 m ρ c).trans rfl

/-- The source half's table is the transpose of the slice of the weights at column offset 0. -/
theorem V1_v1_eq (c : Dev nD) :
    (V1 m ρ c main_v1 : S128x128.Idx → EReal)
      = transpose S128x128 [1, 0] (extractStridedSlice S128x128 ![0, 0]
          (m ((c : Thread nD τ).loc main_arg1) : S128x256.Idx → EReal) slices_S128x256_S128x128_0_0)
          transposes_S128x128_S128x128_1_0 := by
  dsimp only [V1, W1, hostOps0]; after_results

/-- The destination half's table is the transpose of the slice of the weights at column offset 128. -/
theorem V1_v3_eq (c : Dev nD) :
    (V1 m ρ c main_v3 : S128x128.Idx → EReal)
      = transpose S128x128 [1, 0] (extractStridedSlice S128x128 ![0, 128]
          (m ((c : Thread nD τ).loc main_arg1) : S128x256.Idx → EReal) slices_S128x256_S128x128_0_128)
          transposes_S128x128_S128x128_1_0 := by
  dsimp only [V1, W1, hostOps0]; after_results

/-- A transposed 128×128 table read at [k, j] is the table at [j, k]. -/
theorem transpose_128_apply (x : S128x128.Idx → EReal) (h : S128x128.Transposes [1, 0] S128x128) (k j : Fin 128) :
    transpose S128x128 [1, 0] x h (ix2 k j) = x (ix2 j k) :=
  transpose_apply [1, 0] x h (ix2 k j) (ix2 j k) (fun b => by
    match b with
    | ⟨0, _⟩ => rfl
    | ⟨1, _⟩ => rfl)

/-- The slice of a 128×256 table at column offset 0 read at [j, k] is the table at [j, k]. -/
theorem slice_lo_apply (x : S128x256.Idx → EReal) (h : S128x256.Slices ![0, 0] S128x128) (j k : Fin 128) :
    extractStridedSlice S128x128 ![0, 0] x h (ix2 j k) = x (ix2 j (lo k)) :=
  extractStridedSlice_apply ![0, 0] x h (ix2 j k) (ix2 j (lo k)) (fun a => by
    match a with
    | ⟨0, _⟩ => show j.val = 0 + j.val; omega
    | ⟨1, _⟩ => show k.val = 0 + k.val; omega)

/-- The slice of a 128×256 table at column offset 128 read at [j, k] is the table at [j, 128 + k]. -/
theorem slice_hi_apply (x : S128x256.Idx → EReal) (h : S128x256.Slices ![0, 128] S128x128) (j k : Fin 128) :
    extractStridedSlice S128x128 ![0, 128] x h (ix2 j k) = x (ix2 j (hi k)) :=
  extractStridedSlice_apply ![0, 128] x h (ix2 j k) (ix2 j (hi k)) (fun a => by
    match a with
    | ⟨0, _⟩ => show j.val = 0 + j.val; omega
    | ⟨1, _⟩ => show 128 + k.val = 128 + k.val; rfl)

/-- Entry [k, j] of the source half's table is weight [j, k]. -/
theorem V1_v1_apply (c : Dev nD) (k j : Fin 128) :
    (V1 m ρ c main_v1 : S128x128.Idx → EReal) (ix2 k j)
      = (m ((c : Thread nD τ).loc main_arg1) : S128x256.Idx → EReal) (ix2 j (lo k)) := by
  rw [V1_v1_eq m ρ c, transpose_128_apply, slice_lo_apply]

/-- Entry [k, j] of the destination half's table is weight [j, 128 + k]. -/
theorem V1_v3_apply (c : Dev nD) (k j : Fin 128) :
    (V1 m ρ c main_v3 : S128x128.Idx → EReal) (ix2 k j)
      = (m ((c : Thread nD τ).loc main_arg1) : S128x256.Idx → EReal) (ix2 j (hi k)) := by
  rw [V1_v3_eq m ρ c, transpose_128_apply, slice_hi_apply]

/-- The bias row is the first bias recast as a 1×128 table. -/
theorem V1_v4_eq (c : Dev nD) :
    (V1 m ρ c main_v4 : S1x128.Idx → EReal)
      = shapeCast S1x128 (m ((c : Thread nD τ).loc main_arg2) : S128.Idx → EReal) shapeCasts_S128_S1x128 := by
  dsimp only [V1, W1, hostOps0]; after_results; rfl

/-- The bias row's entry [0, j] is the first bias's entry j. -/
theorem V1_v4_apply (c : Dev nD) (j : Fin 128) :
    (V1 m ρ c main_v4 : S1x128.Idx → EReal) (ix2 (0 : Fin 1) j)
      = (m ((c : Thread nD τ).loc main_arg2) : S128.Idx → EReal) (ix1 j) := by
  rw [V1_v4_eq m ρ c]
  exact shapeCast_a_1a_apply _ _ (0 : Fin 1) j

/-- No host operation between the launches, and no window of the first launch, writes the second layer's weights. -/
theorem W12_arg3 (c : Dev nD) :
    W12 m ρ c (Proc.devRef .tc main_arg3) = W1 m ρ c (Proc.devRef .tc main_arg3) :=
  calc W12 m ρ c (Proc.devRef .tc main_arg3)
    _ = W11 m ρ c (Proc.devRef .tc main_arg3) := StableHlo.after_of_forall_not_mem (b := Proc.devRef .tc main_arg3) _ _ (List.forall_iff_forall_mem.mp (by
          simp only [hostOps1_9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg3) := StableHlo.after_of_forall_not_mem (b := Proc.devRef .tc main_arg3) _ _ (List.forall_iff_forall_mem.mp (by
          simp only [hostOps1_8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg3) := StableHlo.after_of_forall_not_mem (b := Proc.devRef .tc main_arg3) _ _ (List.forall_iff_forall_mem.mp (by
          simp only [hostOps1_7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg3) := StableHlo.after_of_forall_not_mem (b := Proc.devRef .tc main_arg3) _ _ (List.forall_iff_forall_mem.mp (by
          simp only [hostOps1_6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg3) := StableHlo.after_of_forall_not_mem (b := Proc.devRef .tc main_arg3) _ _ (List.forall_iff_forall_mem.mp (by
          simp only [hostOps1_5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg3) := StableHlo.after_of_forall_not_mem (b := Proc.devRef .tc main_arg3) _ _ (List.forall_iff_forall_mem.mp (by
          simp only [hostOps1_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg3) := StableHlo.after_of_forall_not_mem (b := Proc.devRef .tc main_arg3) _ _ (List.forall_iff_forall_mem.mp (by
          simp only [hostOps1_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg3) := StableHlo.after_of_forall_not_mem (b := Proc.devRef .tc main_arg3) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg3) := StableHlo.after_of_forall_not_mem (b := Proc.devRef .tc main_arg3) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)

/-- No host operation before the first launch writes the second layer's weights. -/
theorem W1_arg3 (c : Dev nD) :
    W1 m ρ c (Proc.devRef .tc main_arg3) = W0 m ρ c (Proc.devRef .tc main_arg3) :=
  StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The second launch finds the second layer's weights as launched. -/
theorem V12_arg3 (c : Dev nD) :
    (V12 m ρ c main_arg3 : S1x128.Idx → EReal) = m ((c : Thread nD τ).loc main_arg3) :=
  ((W12_arg3 m ρ c).trans (W1_arg3 m ρ c)).trans rfl

/-- No host operation between the launches, and no window of the first launch, writes the 1×1 bias table. -/
theorem W12_v5 (c : Dev nD) :
    W12 m ρ c (Proc.devRef .tc main_v5) = W1 m ρ c (Proc.devRef .tc main_v5) :=
  calc W12 m ρ c (Proc.devRef .tc main_v5)
    _ = W11 m ρ c (Proc.devRef .tc main_v5) := StableHlo.after_of_forall_not_mem (b := Proc.devRef .tc main_v5) _ _ (List.forall_iff_forall_mem.mp (by
          simp only [hostOps1_9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_v5) := StableHlo.after_of_forall_not_mem (b := Proc.devRef .tc main_v5) _ _ (List.forall_iff_forall_mem.mp (by
          simp only [hostOps1_8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v5) := StableHlo.after_of_forall_not_mem (b := Proc.devRef .tc main_v5) _ _ (List.forall_iff_forall_mem.mp (by
          simp only [hostOps1_7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v5) := StableHlo.after_of_forall_not_mem (b := Proc.devRef .tc main_v5) _ _ (List.forall_iff_forall_mem.mp (by
          simp only [hostOps1_6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v5) := StableHlo.after_of_forall_not_mem (b := Proc.devRef .tc main_v5) _ _ (List.forall_iff_forall_mem.mp (by
          simp only [hostOps1_5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v5) := StableHlo.after_of_forall_not_mem (b := Proc.devRef .tc main_v5) _ _ (List.forall_iff_forall_mem.mp (by
          simp only [hostOps1_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v5) := StableHlo.after_of_forall_not_mem (b := Proc.devRef .tc main_v5) _ _ (List.forall_iff_forall_mem.mp (by
          simp only [hostOps1_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v5) := StableHlo.after_of_forall_not_mem (b := Proc.devRef .tc main_v5) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v5) := StableHlo.after_of_forall_not_mem (b := Proc.devRef .tc main_v5) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v5) := StableHlo.after_of_forall_not_mem (b := Proc.devRef .tc main_v5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v5) := W2_of_ne m ρ c main_v5 (by decide)

/-- The 1×1 bias table is the second bias recast. -/
theorem V1_v5_eq (c : Dev nD) :
    (V1 m ρ c main_v5 : S1x1.Idx → EReal)
      = shapeCast S1x1 (m ((c : Thread nD τ).loc main_arg4) : S1.Idx → EReal) shapeCasts_S1_S1x1 := by
  dsimp only [V1, W1, hostOps0]; after_results; rfl

/-- The second launch finds the second bias as a 1×1 table. -/
theorem V12_v5_apply (c : Dev nD) :
    (V12 m ρ c main_v5 : S1x1.Idx → EReal) (ix2 (0 : Fin 1) (0 : Fin 1))
      = (m ((c : Thread nD τ).loc main_arg4) : S1.Idx → EReal) (ix1 (0 : Fin 1)) := by
  have h : (V12 m ρ c main_v5 : S1x1.Idx → EReal) = (V1 m ρ c main_v5 : S1x1.Idx → EReal) := W12_v5 m ρ c
  rw [h, V1_v5_eq m ρ c]
  exact shapeCast_a_1a_apply _ _ (0 : Fin 1) (0 : Fin 1)

/-- The program's result is the first 600000 entries of the second launch's padded output array. -/
theorem W14_v14_eq (c : Dev nD) :
    (W14 m ρ c (Proc.devRef .tc main_v14) : S600000.Idx → EReal)
      = extractStridedSlice S600000 ![0] (W13 m ρ c (Proc.devRef .tc main_v13) : S606208.Idx → EReal)
          slices_S606208_S600000_0 := by
  dsimp only [W14, hostOps2]; after_results

/-- The program's result at edge `e` is the second launch's output at `e`. -/
theorem W14_v14_apply (c : Dev nD) (e : Fin 600000) :
    (W14 m ρ c (Proc.devRef .tc main_v14) : S600000.Idx → EReal) (ix1 e)
      = ((dat1 (F := Ideal) (V12 m ρ) c).arrAt 4 cfg1.N : S606208.Idx → EReal) (ix1 (⟨e.val, by omega⟩ : Fin 606208)) := by
  have h13 : (W13 m ρ c (Proc.devRef .tc main_v13) : S606208.Idx → EReal)
      = ((dat1 (F := Ideal) (V12 m ρ) c).arrAt 4 cfg1.N : S606208.Idx → EReal) := W13_arr m ρ c 4
  rw [W14_v14_eq m ρ c, h13]
  exact extractStridedSlice_apply ![0] _ slices_S606208_S600000_0 (ix1 e) (ix1 (⟨e.val, by omega⟩ : Fin 606208)) (fun a => by
    match a with
    | ⟨0, _⟩ => show e.val = 0 + e.val; omega)

end Cert.KernelIdeal.HostLayout

end
-- ==== Proof.LibScatterGather2.lean ====
/-
  The accumulating scatter and the gather of a table of rows by a column of index words, read at an index.

  Both operations here take an operand of `N` rows and `C` columns and an `M × 1` column of index words, one word per
  update (or result) row: row `e` names row `idx[e, 0]` of the operand, the word read as a SIGNED integer, and the
  columns go straight across.
    • The scatter adds update row `e` into the operand row its word names, column by column, and drops it when the
      word names no row; so element `(u, j)` ends as its old value plus the sum, over the update rows whose word read
      signed is `u`, of their column `j`.
    • The gather reads, at `(e, j)`, column `j` of the operand row `e`'s word names, the word clamped into
      `[0, N − 1]`; when the word is already below `N` (and `N` is at most half the word range, so that the signed
      reading is the unsigned one) that is the row at the word itself.
  Nothing here depends on the sizes: every step is about the two axes, never about the `N`, `M` or `C` positions.
-/
import Idealize.ShloMosaic.PureOps.Ideal
import Idealize.ShloMosaic.PureOps.ShapeOps
import Idealize.ShloMosaic.PureOps.Contract
import Idealize.ShloMosaic.Lib.ValueIdx

noncomputable section

namespace Cert.LibScatterGather2

open Idealize.ShloMosaic Idealize.ShloMosaic.ValueIdx

/-! ## The scatter -/

section Scatter

variable {N C M w : Nat}

/-- Where update index `jj` starts and how far into its window it sits, axis by axis: on the row axis the start is
    the index word of `jj`'s row, read signed, and the window coordinate is zero (the axis is inserted); on the column
    axis the start is zero (no word names it) and the window coordinate is `jj`'s column. -/
theorem start_window (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (idx : IVec ⟨2, ![M, 1]⟩ w) (jj : (⟨2, ![M, C]⟩ : Shape).Idx) :
    d.start jj idx 0 = (idx (ix2 (n0 := M) (n1 := 1) (jj 0) 0)).toInt ∧ d.start jj idx 1 = 0
      ∧ d.window jj 0 = 0 ∧ d.window jj 1 = (jj 1).val := by
  cases d with
  | mk uw iw sd iv wf =>
    obtain rfl : uw = [1] := huw
    obtain rfl : iw = [0] := hiw
    obtain rfl : sd = [0] := hsd
    obtain rfl : iv = 1 := hivd
    refine ⟨?_, ?_, ?_, ?_⟩
    · unfold ScatterDims.start
      rw [dif_pos (List.mem_singleton.mpr rfl)]
      refine congrArg (fun k => (idx k).toInt) ?_
      funext b
      match b with
      | ⟨0, _⟩ => exact Fin.ext rfl
      | ⟨1, _⟩ => exact Fin.ext rfl
    · unfold ScatterDims.start
      rw [dif_neg (by decide : (1 : Fin 2) ∉ [0])]
    · unfold ScatterDims.window
      exact dif_neg (by decide : (0 : Fin 2) ∉ (List.finRange 2).filter (· ∉ [0]))
    · unfold ScatterDims.window
      refine (dif_pos (by decide : (1 : Fin 2) ∈ (List.finRange 2).filter (· ∉ [0]))).trans ?_
      rfl

/-- Update index `jj` lands on element `i` exactly when its row's index word, read signed, is `i`'s row and its
    column is `i`'s column. -/
theorem resultIdx?_iff (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (idx : IVec ⟨2, ![M, 1]⟩ w) (jj : (⟨2, ![M, C]⟩ : Shape).Idx) (i : (⟨2, ![N, C]⟩ : Shape).Idx) :
    d.resultIdx? jj idx = some i
      ↔ (idx (ix2 (n0 := M) (n1 := 1) (jj 0) 0)).toInt = ((i 0).val : ℤ) ∧ (jj 1).val = (i 1).val := by
  obtain ⟨hs0, hs1, hw0, hw1⟩ := start_window d huw hiw hsd hivd idx jj
  have hi0 : (i 0).val < N := (i 0).isLt
  have hi1 : (i 1).val < C := (i 1).isLt
  have hj1 : (jj 1).val < C := (jj 1).isLt
  unfold ScatterDims.resultIdx?
  constructor
  · intro h
    split at h
    · rename_i hc
      have hf := Option.some.inj h
      have h0 : (d.start jj idx 0 + (d.window jj 0 : ℤ)).toNat = (i 0).val := congrArg (fun f => (f 0).val) hf
      have h1 : (d.start jj idx 1 + (d.window jj 1 : ℤ)).toNat = (i 1).val := congrArg (fun f => (f 1).val) hf
      have hc0 := (hc 0).1
      rw [hs0, hw0] at hc0 h0
      rw [hs1, hw1] at h1
      constructor
      · omega
      · omega
    · exact absurd h (by simp)
  · rintro ⟨h, h'⟩
    have hc : ∀ a : Fin 2, 0 ≤ d.start jj idx a + (d.window jj a : ℤ)
        ∧ d.start jj idx a + (d.window jj a : ℤ) < ((⟨2, ![N, C]⟩ : Shape).size a : ℤ) := by
      intro a
      match a with
      | ⟨0, _⟩ =>
        show 0 ≤ d.start jj idx 0 + (d.window jj 0 : ℤ) ∧ d.start jj idx 0 + (d.window jj 0 : ℤ) < (N : ℤ)
        rw [hs0, hw0, h]
        constructor <;> omega
      | ⟨1, _⟩ =>
        show 0 ≤ d.start jj idx 1 + (d.window jj 1 : ℤ) ∧ d.start jj idx 1 + (d.window jj 1 : ℤ) < (C : ℤ)
        rw [hs1, hw1]
        constructor <;> omega
    rw [dif_pos hc]
    refine congrArg some ?_
    funext a
    match a with
    | ⟨0, _⟩ =>
      apply Fin.ext
      show (d.start jj idx 0 + (d.window jj 0 : ℤ)).toNat = (i 0).val
      rw [hs0, hw0, h]; simp
    | ⟨1, _⟩ =>
      apply Fin.ext
      show (d.start jj idx 1 + (d.window jj 1 : ℤ)).toNat = (i 1).val
      rw [hs1, hw1]; simpa using h'

/-- The accumulating scatter at element `(u, j)`: the old value plus column `j` of the update rows whose word,
    read signed, is `u`. -/
theorem scatterAdd_apply {φ : FTy} (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (x : FVec Ideal ⟨2, ![N, C]⟩ φ) (idx : IVec ⟨2, ![M, 1]⟩ w) (upd : FVec Ideal ⟨2, ![M, C]⟩ φ)
    (u : Fin N) (j : Fin C) :
    Host.scatterAdd (F := Ideal) d x idx upd (ix2 u j)
      = x (ix2 u j) + ∑ e ∈ Finset.univ.filter (fun e : Fin M => (idx (ix2 e (0 : Fin 1))).toInt = (u.val : ℤ)),
          upd (ix2 e j) := by
  show Ideal.hostScatterAdd d x idx upd (ix2 u j) = _
  unfold Ideal.hostScatterAdd
  refine congrArg (x (ix2 u j) + ·) ?_
  symm
  refine Finset.sum_bij (fun e _ => ix2 e j) ?_ ?_ ?_ (fun _ _ => rfl)
  · intro e he
    rw [Finset.mem_filter] at he ⊢
    exact ⟨Finset.mem_univ _, (resultIdx?_iff d huw hiw hsd hivd idx (ix2 e j) (ix2 u j)).mpr ⟨he.2, rfl⟩⟩
  · intro e _ e' _ h
    exact congrFun h 0
  · intro jj hjj
    rw [Finset.mem_filter] at hjj
    obtain ⟨h, h'⟩ := (resultIdx?_iff d huw hiw hsd hivd idx jj (ix2 u j)).mp hjj.2
    refine ⟨jj 0, Finset.mem_filter.mpr ⟨Finset.mem_univ _, h⟩, ?_⟩
    rw [eq_ix2 jj]
    refine congrArg (ix2 (jj 0)) (Fin.ext ?_)
    exact h'.symm

end Scatter

/-! ## The gather -/

section Gather

variable {α : Type} {N C M w : Nat}

/-- The gather at `(e, j)`, whatever the word: column `j` of the row at the word read signed and clamped. -/
theorem gather_apply_clamp (d : GatherDims ⟨2, ![N, C]⟩ ⟨2, ![M, 1]⟩ ⟨2, ![M, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![M, 1]⟩ w) (e : Fin M) (j : Fin C) (hN : 0 < N) :
    Host.gather d x idx (ix2 e j)
      = x (ix2 ⟨min (idx (ix2 e (0 : Fin 1))).toInt.toNat (N - 1), by omega⟩ j) := by
  have hsl : d.sliceSizes 0 = 1 := d.slice_collapsed 0 (by rw [hcoll]; exact List.mem_singleton.mpr rfl)
  unfold Host.gather
  refine congrArg x ?_
  cases d with
  | mk od cd ob sb sm iv ss wf =>
    obtain rfl : od = [1] := hoff
    obtain rfl : cd = [0] := hcoll
    obtain rfl : ob = [] := hob
    obtain rfl : sm = [0] := hsim
    obtain rfl : iv = 1 := hivd
    replace hsl : ss 0 = 1 := hsl
    funext a
    match a with
    | ⟨0, _⟩ =>
      apply Fin.ext
      show GatherDims.start _ (ix2 e j) idx 0 + GatherDims.batchCoord _ (ix2 e j) 0 + GatherDims.offCoord _ (ix2 e j) 0
        = min (idx (ix2 e (0 : Fin 1))).toInt.toNat (N - 1)
      rw [GatherDims.batchCoord_eq_zero _ _ _ List.not_mem_nil,
        GatherDims.offCoord_eq_zero _ _ _ (by decide : (0 : Fin 2) ∉ (List.finRange 2).filter (· ∉ [0] ++ []))]
      simp only [Nat.add_zero]
      unfold GatherDims.start
      rw [dif_pos (List.mem_singleton.mpr rfl)]
      show min (idx _).toInt.toNat (N - ss 0) = _
      rw [hsl]
      refine congrArg (fun k => min (idx k).toInt.toNat (N - 1)) ?_
      funext b
      match b with
      | ⟨0, _⟩ => exact Fin.ext rfl
      | ⟨1, _⟩ => exact Fin.ext rfl
    | ⟨1, _⟩ =>
      apply Fin.ext
      show GatherDims.start _ (ix2 e j) idx 1 + GatherDims.batchCoord _ (ix2 e j) 1 + GatherDims.offCoord _ (ix2 e j) 1
        = j.val
      rw [GatherDims.batchCoord_eq_zero _ _ _ List.not_mem_nil]
      simp only [Nat.add_zero]
      unfold GatherDims.start
      rw [dif_neg (by decide : (1 : Fin 2) ∉ [0]), Nat.zero_add]
      unfold GatherDims.offCoord
      refine (dif_pos (by decide : (1 : Fin 2) ∈ (List.finRange 2).filter (· ∉ [0] ++ []))).trans ?_
      rfl

/-- The gather at `(e, j)` when the word is a row's position: column `j` of that row. -/
theorem gather_apply (d : GatherDims ⟨2, ![N, C]⟩ ⟨2, ![M, 1]⟩ ⟨2, ![M, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![M, 1]⟩ w) (e : Fin M) (j : Fin C)
    (hN : 2 * N ≤ 2 ^ w) (h : (idx (ix2 e (0 : Fin 1))).toNat < N) :
    Host.gather d x idx (ix2 e j) = x (ix2 ⟨(idx (ix2 e (0 : Fin 1))).toNat, h⟩ j) := by
  have hN0 : 0 < N := by omega
  rw [gather_apply_clamp d hoff hcoll hob hsim hivd x idx e j hN0]
  refine congrArg x (congrArg (fun r => ix2 r j) (Fin.ext ?_))
  show min (idx (ix2 e (0 : Fin 1))).toInt.toNat (N - 1) = (idx (ix2 e (0 : Fin 1))).toNat
  rw [BitVec.toInt_eq_toNat_of_lt (by omega), Int.toNat_natCast]
  omega

end Gather

end Cert.LibScatterGather2

end
-- ==== Proof.LibClampWord.lean ====
/-
  Facts about one 32-bit index word read as a signed integer, for a table of 50000 rows.

  `clampWord w` is the word clamped into [0, 49999]: the signed maximum with 0, then the signed minimum with 49999.
  Read as a signed integer it is min 49999 (max 0 w); it is never negative, so a test "is it below zero" fails and the
  range test "at least 0 and at most 49999" passes; and for a word that is itself not negative the row it names, capped at
  the last row, is the row the word names, capped at the last row. A word that is not negative also fails the test "is it
  below zero" by itself.
-/
import Idealize.ShloMosaic.PureOps.Ideal
import Idealize.ShloMosaic.Lib.ValueIdx
import Idealize.ShloMosaic.Lib.Affine
import Idealize.ShloMosaic.PureOps.Reduce

namespace Cert.LibClampWord

open Idealize.ShloMosaic

/-- The word clamped into [0, 49999] as a signed integer. -/
def clampWord (w : BitVec 32) : BitVec 32 := IntOp.minsi 49999#32 (IntOp.maxsi 0#32 w)

/-- The word zero is the integer zero. -/
theorem toInt_zero32 : (0#32 : BitVec 32).toInt = 0 := by decide

/-- The word 49999 is the integer 49999. -/
theorem toInt_last32 : (49999#32 : BitVec 32).toInt = 49999 := by decide

/-- The signed maximum of zero and a word, read as a signed integer, is the maximum of the integers. -/
theorem toInt_maxsi_zero (w : BitVec 32) : (IntOp.maxsi 0#32 w).toInt = max 0 w.toInt := by
  unfold IntOp.maxsi
  by_cases hc : w.slt 0#32 = true
  · rw [if_pos hc]
    rw [BitVec.slt_iff_toInt_lt, toInt_zero32] at hc
    rw [toInt_zero32]; omega
  · rw [if_neg hc]
    rw [BitVec.slt_iff_toInt_lt, toInt_zero32] at hc
    omega

/-- The signed minimum of 49999 and a word, read as a signed integer, is the minimum of the integers. -/
theorem toInt_minsi_last (m : BitVec 32) : (IntOp.minsi 49999#32 m).toInt = min 49999 m.toInt := by
  unfold IntOp.minsi
  by_cases hc : (49999#32 : BitVec 32).slt m = true
  · rw [if_pos hc]
    rw [BitVec.slt_iff_toInt_lt, toInt_last32] at hc
    rw [toInt_last32]; omega
  · rw [if_neg hc]
    rw [BitVec.slt_iff_toInt_lt, toInt_last32] at hc
    omega

/-- A signed "less than" test fails exactly when the second word is at most the first. -/
theorem cmpi_slt_eq_zero {x y : BitVec 32} : IntOp.cmpi .slt x y = 0#1 ↔ y.toInt ≤ x.toInt := by
  constructor
  · intro h
    by_contra hlt
    have h1 : IntOp.cmpi .slt x y = 1#1 := IntOp.cmpi_slt.2 (by omega)
    rw [h] at h1
    exact absurd h1 (by decide)
  · intro h
    rcases BitVec.eq_zero_or_eq_one (IntOp.cmpi .slt x y) with h0 | h1
    · exact h0
    · have := IntOp.cmpi_slt.1 h1
      omega

/-- The clamped word read as a signed integer. -/
theorem clampWord_toInt (w : BitVec 32) : (clampWord w).toInt = min 49999 (max 0 w.toInt) := by
  unfold clampWord
  rw [toInt_minsi_last, toInt_maxsi_zero]

/-- The clamped word is not below zero. -/
theorem clampWord_slt_zero (w : BitVec 32) : IntOp.cmpi .slt (clampWord w) 0#32 = 0#1 := by
  rw [cmpi_slt_eq_zero, clampWord_toInt, toInt_zero32]
  omega

/-- The clamped word is at least zero. -/
theorem clampWord_sge_zero (w : BitVec 32) : IntOp.cmpi .sge (clampWord w) 0#32 = 1#1 := by
  rw [IntOp.cmpi_sge, clampWord_toInt, toInt_zero32]
  omega

/-- The clamped word is at most 49999. -/
theorem clampWord_sle_last (w : BitVec 32) : IntOp.cmpi .sle (clampWord w) 49999#32 = 1#1 := by
  rw [IntOp.cmpi_sle, clampWord_toInt, toInt_last32]
  omega

/-- For a word that is not negative, the clamped word names the same row, capped at the last one. -/
theorem clampWord_row (w : BitVec 32) (h : 0 ≤ w.toInt) :
    min (clampWord w).toInt.toNat (50000 - 1) = min w.toInt.toNat 49999 := by
  rw [clampWord_toInt]
  omega

/-- A word that is not negative is not below zero. -/
theorem slt_zero_of_nonneg (w : BitVec 32) (h : 0 ≤ w.toInt) : IntOp.cmpi .slt w 0#32 = 0#1 := by
  rw [cmpi_slt_eq_zero, toInt_zero32]
  exact h

/-- An all-reduction by `and` along an axis of extent one, from the constant one, is the operand's one element there. -/
theorem reduce_and_unit_axis (x : IVec ⟨2, ![600000, 1]⟩ 1)
    (hr : (⟨2, ![600000, 1]⟩ : Shape).ReducesTo [1] ⟨1, ![600000]⟩) (hS : 0 < (⟨0, ![]⟩ : Shape).numel) (e : Fin 600000) :
    Host.reduce IntOp.andi x (constantI ⟨0, ![]⟩ 1 1#1) hr hS (ValueIdx.ix1 e) = x (ValueIdx.ix2 e (0 : Fin 1)) := by
  rw [Host.reduce_eq_fold]
  -- the only index of the operand that lies over position e is (e, 0)
  have hset : (Finset.univ.filter fun i : (⟨2, ![600000, 1]⟩ : Shape).Idx => hr.drop i = ValueIdx.ix1 e)
      = {ValueIdx.ix2 e (0 : Fin 1)} := by
    ext i
    simp only [Finset.mem_filter, Finset.mem_univ, true_and, Finset.mem_singleton]
    have hv : (hr.drop i 0 : Nat) = i 0 := Shape.ReducesTo.drop_apply_val hr i 0
    constructor
    · intro h
      rw [h] at hv
      funext b
      match b with
      | ⟨0, _⟩ => exact Fin.ext hv.symm
      | ⟨1, _⟩ => exact Subsingleton.elim (α := Fin 1) _ _
    · intro h
      subst h
      funext b
      have hb : b = 0 := Subsingleton.elim _ _
      subst hb
      exact Fin.ext hv
  rw [hset, Finset.fold_singleton]
  show IntOp.andi (x (ValueIdx.ix2 e 0)) 1#1 = x (ValueIdx.ix2 e 0)
  generalize x (ValueIdx.ix2 e 0) = c
  revert c; decide

end Cert.LibClampWord
-- ==== Proof.HostGather.lean ====
/-
  The host operations between the two launches that pick, for every edge, a row of a projection table.
  An index word `w` is first clamped into [0, 49999] as a signed integer; the clamped word is not negative, so the
  wrap-around for negative indices leaves it alone, it passes the range test that guards the fill value, and the gather
  reads the row it names. For a word that is not negative that row is `rowOf w`. The gathered table is then extended
  by 6208 zero rows, which an edge below 600000 never sees.
-/
import proofs.«419971_j22832046146011_3_alg».proof.Proof.Gen.KernelIdeal.Frame
import proofs.«419971_j22832046146011_3_alg».proof.Proof.EdgeSpec
import Idealize.ShloMosaic.Lib.ValueIdx
import Idealize.ShloMosaic.Lib.Pipeline.Value
import Idealize.ShloMosaic.PureOps.Ideal.Laws
import proofs.«419971_j22832046146011_3_alg».proof.Proof.LibScatterGather2
import Idealize.ShloMosaic.Lib.KernelVsHost
import proofs.«419971_j22832046146011_3_alg».proof.Proof.LibClampWord

set_option maxRecDepth 16384

noncomputable section

open scoped BigOperators

namespace Cert.KernelIdeal.HostGather

open Cert.KernelIdeal Cert.KernelIdeal.Gen Cert.EdgeScore
open Cert.LibClampWord
open Idealize.ShloMosaic Idealize.ShloMosaic.TcCoe Idealize.ShloMosaic.ValueIdx Idealize.SL.Sem

variable (m : (ℓ : Loc nD τ sig) → Buf (Elt Ideal) ℓ) (ρ : Dev nD → PrngReg)

/-! ## The host operations as terms -/

/-- The index words clamped between the scalar `lo` below and the scalar `hi` above, as signed integers. -/
def clipWith (lo hi : IVec S_ 32) (w : IVec S600000 32) : IVec S600000 32 :=
  minsi (broadcastInDim S600000 ![] bcast_S_S600000 hi) (maxsi (broadcastInDim S600000 ![] bcast_S_S600000 lo) w)

/-- The column of row indices the gather reads: a negative word moved up by the table's height, the others kept. -/
def wrapWords (cl : IVec S600000 32) : IVec S600000x1 32 :=
  broadcastInDim S600000x1 ![0] bcast_S600000_S600000x1_0
    (select (cmpi .slt cl (broadcastInDim S600000 ![] bcast_S_S600000 (constantI S_ 32 0#32)))
      (addi cl (broadcastInDim S600000 ![] bcast_S_S600000 (constantI S_ 32 50000#32))) cl)

/-- The range test of the column of row indices: 1 where the index lies in [0, 49999]. -/
def inRange (ix : IVec S600000x1 32) : IVec S600000 1 :=
  Host.reduce IntOp.andi
    (andi (cmpi .sge ix (broadcastInDim S600000x1 ![] bcast_S_S600000x1 (constantI S_ 32 0#32)))
      (cmpi .sle ix (broadcastInDim S600000x1 ![0, 1] bcast_S1x1_S600000x1_0_1
        (broadcastInDim S1x1 ![1] bcast_S1_S1x1_1 (constantI S1 32 49999#32)))))
    (constantI S_ 1 1#1) reducesTo_S600000x1_S600000_d1 h_S_

/-- The rows of the table `A` the clamped words `cl` name, with the fill value where the range test fails. -/
def takeOf (A : FVec Ideal S50000x128 .f32) (cl : IVec S600000 32) : FVec Ideal S600000x128 .f32 :=
  select (broadcastInDim S600000x128 ![0] bcast_S600000_S600000x128_0 (inRange (wrapWords cl)))
    (Host.gather gather_S50000x128_S600000x1_S600000x128_1_0_n_n_0_1_1128 A (wrapWords cl))
    (broadcastInDim S600000x128 ![] bcast_S_S600000x128 (constant (F := Ideal) S_ .f32 0x7FC00000#32))

/-- The table `T` extended by 6208 rows holding the scalar `z` converted to a float. -/
def padOf (T : FVec Ideal S600000x128 .f32) (z : IVec S_ 32) : FVec Ideal S606208x128 .f32 :=
  pad S606208x128 ![0, 0] ![6208, 0] ![0, 0] T (sitofp (F := Ideal) .f32 z) pads_S600000x128_S606208x128_062080_000 h_S_

/-! ## The composed operations read at an edge and a column -/

/-- The clamp between the scalars 0 and 49999, read at an index, is the clamped word. -/
theorem clipWith_apply (w : IVec S600000 32) (i : S600000.Idx) :
    clipWith (constantI S_ 32 0#32) (constantI S_ 32 49999#32) w i = clampWord (w i) := rfl

/-- The column of row indices at row `e`: the word at `e`, moved up by 50000 when it is negative. -/
theorem wrapWords_apply (cl : IVec S600000 32) (e : Fin 600000) :
    wrapWords cl (ix2 e (0 : Fin 1))
      = Scalar.select (IntOp.cmpi .slt (cl (ix1 e)) 0#32) (IntOp.addi (cl (ix1 e)) 50000#32) (cl (ix1 e)) := by
  unfold wrapWords
  rw [broadcastInDim_apply _ _ _ _ (ix1 e) (fun a => by match a with | ⟨0, _⟩ => rfl)]
  rfl

section AtAnEdge
variable (A : FVec Ideal S50000x128 .f32) (w : IVec S600000 32) (e : Fin 600000) (j : Fin 128)

/-- The row index the gather reads for edge `e` is the clamped word: a clamped word is not negative. -/
theorem wrapWords_clip :
    wrapWords (clipWith (constantI S_ 32 0#32) (constantI S_ 32 49999#32) w) (ix2 e (0 : Fin 1))
      = clampWord (w (ix1 e)) := by
  rw [wrapWords_apply, clipWith_apply, clampWord_slt_zero, select_zero]

/-- The range test passes at every edge: a clamped word lies in [0, 49999]. -/
theorem inRange_clip :
    inRange (wrapWords (clipWith (constantI S_ 32 0#32) (constantI S_ 32 49999#32) w)) (ix1 e) = 1#1 := by
  unfold inRange
  rw [reduce_and_unit_axis]
  show IntOp.andi
      (IntOp.cmpi .sge (wrapWords (clipWith (constantI S_ 32 0#32) (constantI S_ 32 49999#32) w) (ix2 e (0 : Fin 1))) 0#32)
      (IntOp.cmpi .sle (wrapWords (clipWith (constantI S_ 32 0#32) (constantI S_ 32 49999#32) w) (ix2 e (0 : Fin 1))) 49999#32)
    = 1#1
  rw [wrapWords_clip, clampWord_sge_zero, clampWord_sle_last]
  rfl

/-- The gathered table at edge `e`, column `j`, for a word that is not negative: the table at the row the word names. -/
theorem takeOf_clip_apply (hnn : 0 ≤ (w (ix1 e)).toInt) :
    takeOf A (clipWith (constantI S_ 32 0#32) (constantI S_ 32 49999#32) w) (ix2 e j)
      = A (ix2 (rowOf (w (ix1 e))) j) := by
  unfold takeOf
  rw [select_apply,
    broadcastInDim_apply _ _ (inRange _) (ix2 e j) (ix1 e) (fun a => by match a with | ⟨0, _⟩ => rfl),
    inRange_clip, select_one,
    Cert.LibScatterGather2.gather_apply_clamp _ rfl rfl rfl rfl rfl A _ e j (by decide)]
  refine congrArg A (congrArg (fun r => ix2 r j) (Fin.ext ?_))
  show min (wrapWords (clipWith (constantI S_ 32 0#32) (constantI S_ 32 49999#32) w) (ix2 e (0 : Fin 1))).toInt.toNat (50000 - 1)
    = min (w (ix1 e)).toInt.toNat 49999
  rw [wrapWords_clip]
  exact clampWord_row _ hnn

end AtAnEdge

/-- The extended table at an edge below 600000 is the gathered table there. -/
theorem padOf_apply (T : FVec Ideal S600000x128 .f32) (z : IVec S_ 32) (e : Fin 606208) (he : e.val < 600000) (j : Fin 128) :
    padOf T z (ix2 e j) = T (ix2 (⟨e.val, he⟩ : Fin 600000) j) := by
  unfold padOf
  refine pad_apply_of_inside _ _ _ _ _ _ _ (ix2 e j) (ix2 (⟨e.val, he⟩ : Fin 600000) j) (fun a => ?_)
  match a with
  | ⟨0, _⟩ => show e.val = 0 + e.val * (0 + 1); omega
  | ⟨1, _⟩ => show j.val = 0 + j.val * (0 + 1); omega

/-! ## The two row lookups cut in three parts each -/

/-- The first row lookup's operations that make the column of row indices. -/
abbrev srcA : List (HloOp τ sig (Elt Ideal)) :=
  [ StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S600000, .i32⟩) (broadcastInDim S600000 ![] bcast_S_S600000),
    StableHlo.TRef.binary (.of main_v7 : StableHlo.TRef sig ⟨S600000, .i32⟩) (.of main_call2_v0 : StableHlo.TRef sig ⟨S600000, .i32⟩) (.of main_call2_v1 : StableHlo.TRef sig ⟨S600000, .i1⟩) (cmpi .slt),
    StableHlo.TRef.nullary (.of main_call2_c_0 : StableHlo.TRef sig ⟨S_, .i32⟩) (constantI S_ 32 50000#32),
    StableHlo.TRef.unary (.of main_call2_c_0 : StableHlo.TRef sig ⟨S_, .i32⟩) (.of main_call2_v2 : StableHlo.TRef sig ⟨S600000, .i32⟩) (broadcastInDim S600000 ![] bcast_S_S600000),
    StableHlo.TRef.binary (.of main_v7 : StableHlo.TRef sig ⟨S600000, .i32⟩) (.of main_call2_v2 : StableHlo.TRef sig ⟨S600000, .i32⟩) (.of main_call2_v3 : StableHlo.TRef sig ⟨S600000, .i32⟩) addi,
    StableHlo.TRef.ternary (.of main_call2_v1 : StableHlo.TRef sig ⟨S600000, .i1⟩) (.of main_call2_v3 : StableHlo.TRef sig ⟨S600000, .i32⟩) (.of main_v7 : StableHlo.TRef sig ⟨S600000, .i32⟩) (.of main_call2_v4 : StableHlo.TRef sig ⟨S600000, .i32⟩) select,
    StableHlo.TRef.unary main_call2_call0.v0 (.of main_call2_v5 : StableHlo.TRef sig ⟨S600000x1, .i32⟩) (broadcastInDim S600000x1 ![0] bcast_S600000_S600000x1_0) ]
/-- The first row lookup's operations that make the range test. -/
abbrev srcB : List (HloOp τ sig (Elt Ideal)) :=
  [ StableHlo.TRef.nullary (.of main_call2_c_1 : StableHlo.TRef sig ⟨S1, .i32⟩) (constantI S1 32 49999#32),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v6 : StableHlo.TRef sig ⟨S600000x1, .i32⟩) (broadcastInDim S600000x1 ![] bcast_S_S600000x1),
    StableHlo.TRef.binary (.of main_call2_v5 : StableHlo.TRef sig ⟨S600000x1, .i32⟩) (.of main_call2_v6 : StableHlo.TRef sig ⟨S600000x1, .i32⟩) (.of main_call2_v7 : StableHlo.TRef sig ⟨S600000x1, .i1⟩) (cmpi .sge),
    StableHlo.TRef.unary (.of main_call2_c_1 : StableHlo.TRef sig ⟨S1, .i32⟩) (.of main_call2_v8 : StableHlo.TRef sig ⟨S1x1, .i32⟩) (broadcastInDim S1x1 ![1] bcast_S1_S1x1_1),
    StableHlo.TRef.unary (.of main_call2_v8 : StableHlo.TRef sig ⟨S1x1, .i32⟩) (.of main_call2_v9 : StableHlo.TRef sig ⟨S600000x1, .i32⟩) (broadcastInDim S600000x1 ![0, 1] bcast_S1x1_S600000x1_0_1),
    StableHlo.TRef.binary (.of main_call2_v5 : StableHlo.TRef sig ⟨S600000x1, .i32⟩) (.of main_call2_v9 : StableHlo.TRef sig ⟨S600000x1, .i32⟩) (.of main_call2_v10 : StableHlo.TRef sig ⟨S600000x1, .i1⟩) (cmpi .sle),
    StableHlo.TRef.binary (.of main_call2_v7 : StableHlo.TRef sig ⟨S600000x1, .i1⟩) (.of main_call2_v10 : StableHlo.TRef sig ⟨S600000x1, .i1⟩) (.of main_call2_v11 : StableHlo.TRef sig ⟨S600000x1, .i1⟩) andi,
    StableHlo.TRef.nullary (.of main_call2_c_3 : StableHlo.TRef sig ⟨S_, .i1⟩) (constantI S_ 1 1#1),
    StableHlo.TRef.binary (.of main_call2_v11 : StableHlo.TRef sig ⟨S600000x1, .i1⟩) (.of main_call2_c_3 : StableHlo.TRef sig ⟨S_, .i1⟩) (.of main_call2_v12 : StableHlo.TRef sig ⟨S600000, .i1⟩) (fun x v => Host.reduce IntOp.andi x v reducesTo_S600000x1_S600000_d1 h_S_) ]
/-- The first row lookup's operations that gather the rows and fill where the range test fails. -/
abbrev srcC : List (HloOp τ sig (Elt Ideal)) :=
  [ StableHlo.TRef.binary (.of main_v6_0 : StableHlo.TRef sig ⟨S50000x128, .f32⟩) (.of main_call2_v5 : StableHlo.TRef sig ⟨S600000x1, .i32⟩) (.of main_call2_v13 : StableHlo.TRef sig ⟨S600000x128, .f32⟩) (fun x i => Host.gather gather_S50000x128_S600000x1_S600000x128_1_0_n_n_0_1_1128 x i),
    StableHlo.TRef.unary (.of main_call2_v12 : StableHlo.TRef sig ⟨S600000, .i1⟩) (.of main_call2_v14 : StableHlo.TRef sig ⟨S600000x128, .i1⟩) (broadcastInDim S600000x128 ![0] bcast_S600000_S600000x128_0),
    StableHlo.TRef.nullary (.of main_call2_cst : StableHlo.TRef sig ⟨S_, .f32⟩) (constant (F := Ideal) S_ .f32 0x7FC00000#32),
    StableHlo.TRef.unary (.of main_call2_cst : StableHlo.TRef sig ⟨S_, .f32⟩) (.of main_call2_v15 : StableHlo.TRef sig ⟨S600000x128, .f32⟩) (broadcastInDim S600000x128 ![] bcast_S_S600000x128),
    StableHlo.TRef.ternary (.of main_call2_v14 : StableHlo.TRef sig ⟨S600000x128, .i1⟩) (.of main_call2_v13 : StableHlo.TRef sig ⟨S600000x128, .f32⟩) (.of main_call2_v15 : StableHlo.TRef sig ⟨S600000x128, .f32⟩) (.of main_v9 : StableHlo.TRef sig ⟨S600000x128, .f32⟩) select ]

/-- The second row lookup's operations that make the column of row indices. -/
abbrev dstA : List (HloOp τ sig (Elt Ideal)) :=
  [ StableHlo.TRef.nullary (.of main_call3_c : StableHlo.TRef sig ⟨S_, .i32⟩) (constantI S_ 32 0#32),
    StableHlo.TRef.unary (.of main_call3_c : StableHlo.TRef sig ⟨S_, .i32⟩) (.of main_call3_v0 : StableHlo.TRef sig ⟨S600000, .i32⟩) (broadcastInDim S600000 ![] bcast_S_S600000),
    StableHlo.TRef.binary (.of main_v8 : StableHlo.TRef sig ⟨S600000, .i32⟩) (.of main_call3_v0 : StableHlo.TRef sig ⟨S600000, .i32⟩) (.of main_call3_v1 : StableHlo.TRef sig ⟨S600000, .i1⟩) (cmpi .slt),
    StableHlo.TRef.nullary (.of main_call3_c_0 : StableHlo.TRef sig ⟨S_, .i32⟩) (constantI S_ 32 50000#32),
    StableHlo.TRef.unary (.of main_call3_c_0 : StableHlo.TRef sig ⟨S_, .i32⟩) (.of main_call3_v2 : StableHlo.TRef sig ⟨S600000, .i32⟩) (broadcastInDim S600000 ![] bcast_S_S600000),
    StableHlo.TRef.binary (.of main_v8 : StableHlo.TRef sig ⟨S600000, .i32⟩) (.of main_call3_v2 : StableHlo.TRef sig ⟨S600000, .i32⟩) (.of main_call3_v3 : StableHlo.TRef sig ⟨S600000, .i32⟩) addi,
    StableHlo.TRef.ternary (.of main_call3_v1 : StableHlo.TRef sig ⟨S600000, .i1⟩) (.of main_call3_v3 : StableHlo.TRef sig ⟨S600000, .i32⟩) (.of main_v8 : StableHlo.TRef sig ⟨S600000, .i32⟩) (.of main_call3_v4 : StableHlo.TRef sig ⟨S600000, .i32⟩) select,
    StableHlo.TRef.unary main_call3_call0.v0 (.of main_call3_v5 : StableHlo.TRef sig ⟨S600000x1, .i32⟩) (broadcastInDim S600000x1 ![0] bcast_S600000_S600000x1_0) ]
/-- The second row lookup's operations that make the range test. -/
abbrev dstB : List (HloOp τ sig (Elt Ideal)) :=
  [ StableHlo.TRef.nullary (.of main_call3_c_1 : StableHlo.TRef sig ⟨S1, .i32⟩) (constantI S1 32 49999#32),
    StableHlo.TRef.nullary (.of main_call3_c_2 : StableHlo.TRef sig ⟨S_, .i32⟩) (constantI S_ 32 0#32),
    StableHlo.TRef.unary (.of main_call3_c_2 : StableHlo.TRef sig ⟨S_, .i32⟩) (.of main_call3_v6 : StableHlo.TRef sig ⟨S600000x1, .i32⟩) (broadcastInDim S600000x1 ![] bcast_S_S600000x1),
    StableHlo.TRef.binary (.of main_call3_v5 : StableHlo.TRef sig ⟨S600000x1, .i32⟩) (.of main_call3_v6 : StableHlo.TRef sig ⟨S600000x1, .i32⟩) (.of main_call3_v7 : StableHlo.TRef sig ⟨S600000x1, .i1⟩) (cmpi .sge),
    StableHlo.TRef.unary (.of main_call3_c_1 : StableHlo.TRef sig ⟨S1, .i32⟩) (.of main_call3_v8 : StableHlo.TRef sig ⟨S1x1, .i32⟩) (broadcastInDim S1x1 ![1] bcast_S1_S1x1_1),
    StableHlo.TRef.unary (.of main_call3_v8 : StableHlo.TRef sig ⟨S1x1, .i32⟩) (.of main_call3_v9 : StableHlo.TRef sig ⟨S600000x1, .i32⟩) (broadcastInDim S600000x1 ![0, 1] bcast_S1x1_S600000x1_0_1),
    StableHlo.TRef.binary (.of main_call3_v5 : StableHlo.TRef sig ⟨S600000x1, .i32⟩) (.of main_call3_v9 : StableHlo.TRef sig ⟨S600000x1, .i32⟩) (.of main_call3_v10 : StableHlo.TRef sig ⟨S600000x1, .i1⟩) (cmpi .sle),
    StableHlo.TRef.binary (.of main_call3_v7 : StableHlo.TRef sig ⟨S600000x1, .i1⟩) (.of main_call3_v10 : StableHlo.TRef sig ⟨S600000x1, .i1⟩) (.of main_call3_v11 : StableHlo.TRef sig ⟨S600000x1, .i1⟩) andi,
    StableHlo.TRef.nullary (.of main_call3_c_3 : StableHlo.TRef sig ⟨S_, .i1⟩) (constantI S_ 1 1#1),
    StableHlo.TRef.binary (.of main_call3_v11 : StableHlo.TRef sig ⟨S600000x1, .i1⟩) (.of main_call3_c_3 : StableHlo.TRef sig ⟨S_, .i1⟩) (.of main_call3_v12 : StableHlo.TRef sig ⟨S600000, .i1⟩) (fun x v => Host.reduce IntOp.andi x v reducesTo_S600000x1_S600000_d1 h_S_) ]
/-- The second row lookup's operations that gather the rows and fill where the range test fails. -/
abbrev dstC : List (HloOp τ sig (Elt Ideal)) :=
  [ StableHlo.TRef.binary (.of main_v6_1 : StableHlo.TRef sig ⟨S50000x128, .f32⟩) (.of main_call3_v5 : StableHlo.TRef sig ⟨S600000x1, .i32⟩) (.of main_call3_v13 : StableHlo.TRef sig ⟨S600000x128, .f32⟩) (fun x i => Host.gather gather_S50000x128_S600000x1_S600000x128_1_0_n_n_0_1_1128 x i),
    StableHlo.TRef.unary (.of main_call3_v12 : StableHlo.TRef sig ⟨S600000, .i1⟩) (.of main_call3_v14 : StableHlo.TRef sig ⟨S600000x128, .i1⟩) (broadcastInDim S600000x128 ![0] bcast_S600000_S600000x128_0),
    StableHlo.TRef.nullary (.of main_call3_cst : StableHlo.TRef sig ⟨S_, .f32⟩) (constant (F := Ideal) S_ .f32 0x7FC00000#32),
    StableHlo.TRef.unary (.of main_call3_cst : StableHlo.TRef sig ⟨S_, .f32⟩) (.of main_call3_v15 : StableHlo.TRef sig ⟨S600000x128, .f32⟩) (broadcastInDim S600000x128 ![] bcast_S_S600000x128),
    StableHlo.TRef.ternary (.of main_call3_v14 : StableHlo.TRef sig ⟨S600000x128, .i1⟩) (.of main_call3_v13 : StableHlo.TRef sig ⟨S600000x128, .f32⟩) (.of main_call3_v15 : StableHlo.TRef sig ⟨S600000x128, .f32⟩) (.of main_v10 : StableHlo.TRef sig ⟨S600000x128, .f32⟩) select ]

/-- Contents moved to a buffer's own type and back are the contents. -/
theorem ofBuf_toBuf {T : BufTy} (x : StableHlo.TRef sig T) (v : T.Contents (Elt Ideal)) :
    x.ofBuf (x.toBuf v) = v := by
  obtain ⟨r, rfl, h1, h2⟩ := x
  rfl

/-- A buffer that no operation of a list writes holds after the list what it held before. -/
macro "unwritten" : tactic => `(tactic| (
  refine StableHlo.after_of_forall_not_mem _ _ (List.forall_iff_forall_mem.mp ?_)
  simp only [hostOps0, hostOps1, hostOps1_1, hostOps1_2, hostOps1_3, hostOps1_4, hostOps1_5, hostOps1_6, hostOps1_7,
    hostOps1_8, hostOps1_9, srcA, srcB, srcC, dstA, dstB, dstC, List.Forall, StableHlo.nullary_writes,
    StableHlo.unary_writes, StableHlo.binary_writes, StableHlo.ternary_writes, StableHlo.reshape_writes,
    Finset.mem_singleton]
  repeat' apply And.intro
  all_goals exact StableHlo.devRef_ne_of_ne (by decide)))

/-! ## What each stretch of host operations leaves, over any contents before it -/

section Stretches
variable (X : Valuation τ sig (Elt Ideal))

/-- The first row lookup is its three parts one after the other. -/
theorem src_split : StableHlo.after hostOps1_4 X = StableHlo.after srcC (StableHlo.after srcB (StableHlo.after srcA X)) := rfl

/-- The first row lookup's first part leaves the column of row indices of the clamped words. -/
theorem srcA_v5 :
    (StableHlo.after srcA X (Proc.devRef .tc main_call2_v5) : S600000x1.Idx → BitVec 32)
      = wrapWords (X (Proc.devRef .tc main_v7)) := by
  simp only [srcA]
  after_results
  rfl

/-- The first row lookup's second part leaves the range test of the column of row indices. -/
theorem srcB_v12 :
    (StableHlo.after srcB X (Proc.devRef .tc main_call2_v12) : S600000.Idx → BitVec 1)
      = inRange (X (Proc.devRef .tc main_call2_v5)) := by
  simp only [srcB]
  after_results
  simp only [ofBuf_toBuf]
  refine eq_of_heq ((cast_heq _ _).trans (heq_of_eq ?_))
  unfold inRange
  exact congrArg (fun x => Host.reduce IntOp.andi x (constantI S_ 1 1#1) reducesTo_S600000x1_S600000_d1 h_S_) rfl

/-- The first row lookup's third part leaves the gathered rows where the range test passed, the fill value elsewhere. -/
theorem srcC_v9 :
    (StableHlo.after srcC X (Proc.devRef .tc main_v9) : S600000x128.Idx → EReal)
      = select (broadcastInDim S600000x128 ![0] bcast_S600000_S600000x128_0 (X (Proc.devRef .tc main_call2_v12)))
          (Host.gather gather_S50000x128_S600000x1_S600000x128_1_0_n_n_0_1_1128 (X (Proc.devRef .tc main_v6_0))
            (X (Proc.devRef .tc main_call2_v5)))
          (broadcastInDim S600000x128 ![] bcast_S_S600000x128 (constant (F := Ideal) S_ .f32 0x7FC00000#32)) := by
  simp only [srcC]
  after_results
  rfl

/-- The first clamp's result: the source words clamped between the two scalars. -/
theorem clip_src :
    (StableHlo.after hostOps1_1 X (Proc.devRef .tc main_v7) : S600000.Idx → BitVec 32)
      = clipWith (X (Proc.devRef .tc main_c)) (X (Proc.devRef .tc main_c_0)) (X (Proc.devRef .tc main_arg5)) := by
  simp only [hostOps1_1]
  after_results
  rfl

/-- The first row lookup's result: the rows of the first table the clamped source words name. -/
theorem take_src :
    (StableHlo.after hostOps1_4 X (Proc.devRef .tc main_v9) : S600000x128.Idx → EReal)
      = takeOf (X (Proc.devRef .tc main_v6_0)) (X (Proc.devRef .tc main_v7)) := by
  have h5 : StableHlo.after srcB (StableHlo.after srcA X) (Proc.devRef .tc main_call2_v5)
      = StableHlo.after srcA X (Proc.devRef .tc main_call2_v5) := by unwritten
  have hA1 : StableHlo.after srcB (StableHlo.after srcA X) (Proc.devRef .tc main_v6_0)
      = StableHlo.after srcA X (Proc.devRef .tc main_v6_0) := by unwritten
  have hA2 : StableHlo.after srcA X (Proc.devRef .tc main_v6_0) = X (Proc.devRef .tc main_v6_0) := by unwritten
  rw [src_split, srcC_v9, srcB_v12, h5, hA1, hA2, srcA_v5]
  rfl

/-- The first extension's result: the looked-up rows and 6208 more rows of the converted scalar. -/
theorem pad_src :
    (StableHlo.after hostOps1_7 X (Proc.devRef .tc main_v11) : S606208x128.Idx → EReal)
      = padOf (X (Proc.devRef .tc main_v9)) (X (Proc.devRef .tc main_c_3)) := by
  simp only [hostOps1_7]
  after_results
  rfl

end Stretches

section StretchesDst
variable (X : Valuation τ sig (Elt Ideal))

/-- The second row lookup is its three parts one after the other. -/
theorem dst_split : StableHlo.after hostOps1_5 X = StableHlo.after dstC (StableHlo.after dstB (StableHlo.after dstA X)) := rfl

/-- The second row lookup's first part leaves the column of row indices of the clamped words. -/
theorem dstA_v5 :
    (StableHlo.after dstA X (Proc.devRef .tc main_call3_v5) : S600000x1.Idx → BitVec 32)
      = wrapWords (X (Proc.devRef .tc main_v8)) := by
  simp only [dstA]
  after_results
  rfl

/-- The second row lookup's second part leaves the range test of the column of row indices. -/
theorem dstB_v12 :
    (StableHlo.after dstB X (Proc.devRef .tc main_call3_v12) : S600000.Idx → BitVec 1)
      = inRange (X (Proc.devRef .tc main_call3_v5)) := by
  simp only [dstB]
  after_results
  simp only [ofBuf_toBuf]
  refine eq_of_heq ((cast_heq _ _).trans (heq_of_eq ?_))
  unfold inRange
  exact congrArg (fun x => Host.reduce IntOp.andi x (constantI S_ 1 1#1) reducesTo_S600000x1_S600000_d1 h_S_) rfl

/-- The second row lookup's third part leaves the gathered rows where the range test passed, the fill value elsewhere. -/
theorem dstC_v9 :
    (StableHlo.after dstC X (Proc.devRef .tc main_v10) : S600000x128.Idx → EReal)
      = select (broadcastInDim S600000x128 ![0] bcast_S600000_S600000x128_0 (X (Proc.devRef .tc main_call3_v12)))
          (Host.gather gather_S50000x128_S600000x1_S600000x128_1_0_n_n_0_1_1128 (X (Proc.devRef .tc main_v6_1))
            (X (Proc.devRef .tc main_call3_v5)))
          (broadcastInDim S600000x128 ![] bcast_S_S600000x128 (constant (F := Ideal) S_ .f32 0x7FC00000#32)) := by
  simp only [dstC]
  after_results
  rfl

/-- The second clamp's result: the destination words clamped between the two scalars. -/
theorem clip_dst :
    (StableHlo.after hostOps1_3 X (Proc.devRef .tc main_v8) : S600000.Idx → BitVec 32)
      = clipWith (X (Proc.devRef .tc main_c_1)) (X (Proc.devRef .tc main_c_2)) (X (Proc.devRef .tc main_arg6)) := by
  simp only [hostOps1_3]
  after_results
  rfl

/-- The second row lookup's result: the rows of the second table the clamped destination words name. -/
theorem take_dst :
    (StableHlo.after hostOps1_5 X (Proc.devRef .tc main_v10) : S600000x128.Idx → EReal)
      = takeOf (X (Proc.devRef .tc main_v6_1)) (X (Proc.devRef .tc main_v8)) := by
  have h5 : StableHlo.after dstB (StableHlo.after dstA X) (Proc.devRef .tc main_call3_v5)
      = StableHlo.after dstA X (Proc.devRef .tc main_call3_v5) := by unwritten
  have hA1 : StableHlo.after dstB (StableHlo.after dstA X) (Proc.devRef .tc main_v6_1)
      = StableHlo.after dstA X (Proc.devRef .tc main_v6_1) := by unwritten
  have hA2 : StableHlo.after dstA X (Proc.devRef .tc main_v6_1) = X (Proc.devRef .tc main_v6_1) := by unwritten
  rw [dst_split, dstC_v9, dstB_v12, h5, hA1, hA2, dstA_v5]
  rfl

/-- The second extension's result: the looked-up rows and 6208 more rows of the converted scalar. -/
theorem pad_dst :
    (StableHlo.after hostOps1_9 X (Proc.devRef .tc main_v12) : S606208x128.Idx → EReal)
      = padOf (X (Proc.devRef .tc main_v10)) (X (Proc.devRef .tc main_c_4)) := by
  simp only [hostOps1_9]
  after_results
  rfl

end StretchesDst

/-! ## The run from the launch memory to the second launch's tables -/

section Run
variable (X : Valuation τ sig (Elt Ideal))

/-- The first clamp's two scalars after the host wrote them: 0 and 49999. -/
theorem consts_src :
    (StableHlo.after hostOps1 X (Proc.devRef .tc main_c) : S_.Idx → BitVec 32) = constantI S_ 32 0#32
      ∧ (StableHlo.after hostOps1 X (Proc.devRef .tc main_c_0) : S_.Idx → BitVec 32) = constantI S_ 32 49999#32 := by
  constructor
  · simp only [hostOps1]
    after_results
    first | done | rfl
  · simp only [hostOps1]
    after_results
    first | done | rfl

/-- The scalar the first extension converts, after the host wrote it: 0. -/
theorem zero_src :
    (StableHlo.after hostOps1_6 X (Proc.devRef .tc main_c_3) : S_.Idx → BitVec 32) = constantI S_ 32 0#32 := by
  simp only [hostOps1_6]
  after_results
  first | done | rfl

end Run

/-- The second launch's first table as one term: the first projection table's rows at the clamped source words,
    extended by 6208 rows. -/
theorem V12_v11_eq (c : Dev nD) :
    (V12 m ρ c main_v11 : S606208x128.Idx → EReal)
      = padOf (takeOf ((dat0 (F := Ideal) (V1 m ρ) c).arrAt 4 cfg0.N)
            (clipWith (constantI S_ 32 0#32) (constantI S_ 32 49999#32) (m ((c : Thread nD τ).loc main_arg5))))
          (constantI S_ 32 0#32) := by
  have a12 : W12 m ρ c (Proc.devRef .tc main_v11) = W11 m ρ c (Proc.devRef .tc main_v11) := by unwritten
  have a11 : W11 m ρ c (Proc.devRef .tc main_v11) = W10 m ρ c (Proc.devRef .tc main_v11) := by unwritten
  have a10 : (W10 m ρ c (Proc.devRef .tc main_v11) : S606208x128.Idx → EReal)
      = padOf (W9 m ρ c (Proc.devRef .tc main_v9)) (W9 m ρ c (Proc.devRef .tc main_c_3)) := pad_src (W9 m ρ c)
  have b9 : W9 m ρ c (Proc.devRef .tc main_v9) = W8 m ρ c (Proc.devRef .tc main_v9) := by unwritten
  have b8 : W8 m ρ c (Proc.devRef .tc main_v9) = W7 m ρ c (Proc.devRef .tc main_v9) := by unwritten
  have z9 : (W9 m ρ c (Proc.devRef .tc main_c_3) : S_.Idx → BitVec 32) = constantI S_ 32 0#32 := zero_src (W8 m ρ c)
  have b7 : (W7 m ρ c (Proc.devRef .tc main_v9) : S600000x128.Idx → EReal)
      = takeOf (W6 m ρ c (Proc.devRef .tc main_v6_0)) (W6 m ρ c (Proc.devRef .tc main_v7)) := take_src (W6 m ρ c)
  have c6 : W6 m ρ c (Proc.devRef .tc main_v7) = W5 m ρ c (Proc.devRef .tc main_v7) := by unwritten
  have c5 : W5 m ρ c (Proc.devRef .tc main_v7) = W4 m ρ c (Proc.devRef .tc main_v7) := by unwritten
  have c4 : (W4 m ρ c (Proc.devRef .tc main_v7) : S600000.Idx → BitVec 32)
      = clipWith (W3 m ρ c (Proc.devRef .tc main_c)) (W3 m ρ c (Proc.devRef .tc main_c_0))
          (W3 m ρ c (Proc.devRef .tc main_arg5)) := clip_src (W3 m ρ c)
  have k0 : (W3 m ρ c (Proc.devRef .tc main_c) : S_.Idx → BitVec 32) = constantI S_ 32 0#32 := (consts_src (W2 m ρ c)).1
  have k1 : (W3 m ρ c (Proc.devRef .tc main_c_0) : S_.Idx → BitVec 32) = constantI S_ 32 49999#32 := (consts_src (W2 m ρ c)).2
  have d6 : W6 m ρ c (Proc.devRef .tc main_v6_0) = W5 m ρ c (Proc.devRef .tc main_v6_0) := by unwritten
  have d5 : W5 m ρ c (Proc.devRef .tc main_v6_0) = W4 m ρ c (Proc.devRef .tc main_v6_0) := by unwritten
  have d4 : W4 m ρ c (Proc.devRef .tc main_v6_0) = W3 m ρ c (Proc.devRef .tc main_v6_0) := by unwritten
  have d3 : W3 m ρ c (Proc.devRef .tc main_v6_0) = W2 m ρ c (Proc.devRef .tc main_v6_0) := by unwritten
  have d2 : W2 m ρ c (Proc.devRef .tc main_v6_0) = (dat0 (F := Ideal) (V1 m ρ) c).arrAt 4 cfg0.N := W2_arr m ρ c 4
  have e3 : W3 m ρ c (Proc.devRef .tc main_arg5) = W2 m ρ c (Proc.devRef .tc main_arg5) := by unwritten
  have e2 : W2 m ρ c (Proc.devRef .tc main_arg5) = W1 m ρ c (Proc.devRef .tc main_arg5) :=
    W2_of_ne m ρ c main_arg5 (by decide)
  have e1 : W1 m ρ c (Proc.devRef .tc main_arg5) = W0 m ρ c (Proc.devRef .tc main_arg5) := by unwritten
  have e0 : W0 m ρ c (Proc.devRef .tc main_arg5) = m ((c : Thread nD τ).loc main_arg5) := rfl
  show W12 m ρ c (Proc.devRef .tc main_v11) = _
  rw [a12, a11, a10, b9, b8, z9, b7, c6, c5, c4, k0, k1, d6, d5, d4, d3, d2, e3, e2, e1, e0]

section RunDst
variable (X : Valuation τ sig (Elt Ideal))

/-- The second clamp's two scalars after the host wrote them: 0 and 49999. -/
theorem consts_dst :
    (StableHlo.after hostOps1_2 X (Proc.devRef .tc main_c_1) : S_.Idx → BitVec 32) = constantI S_ 32 0#32
      ∧ (StableHlo.after hostOps1_2 X (Proc.devRef .tc main_c_2) : S_.Idx → BitVec 32) = constantI S_ 32 49999#32 := by
  constructor
  · simp only [hostOps1_2]
    after_results
    first | done | rfl
  · simp only [hostOps1_2]
    after_results
    first | done | rfl

/-- The scalar the second extension converts, after the host wrote it: 0. -/
theorem zero_dst :
    (StableHlo.after hostOps1_8 X (Proc.devRef .tc main_c_4) : S_.Idx → BitVec 32) = constantI S_ 32 0#32 := by
  simp only [hostOps1_8]
  after_results
  first | done | rfl

end RunDst

/-- The second launch's second table as one term: the second projection table's rows at the clamped destination
    words, extended by 6208 rows. -/
theorem V12_v12_eq (c : Dev nD) :
    (V12 m ρ c main_v12 : S606208x128.Idx → EReal)
      = padOf (takeOf ((dat0 (F := Ideal) (V1 m ρ) c).arrAt 5 cfg0.N)
            (clipWith (constantI S_ 32 0#32) (constantI S_ 32 49999#32) (m ((c : Thread nD τ).loc main_arg6))))
          (constantI S_ 32 0#32) := by
  have a12 : (W12 m ρ c (Proc.devRef .tc main_v12) : S606208x128.Idx → EReal)
      = padOf (W11 m ρ c (Proc.devRef .tc main_v10)) (W11 m ρ c (Proc.devRef .tc main_c_4)) := pad_dst (W11 m ρ c)
  have z11 : (W11 m ρ c (Proc.devRef .tc main_c_4) : S_.Idx → BitVec 32) = constantI S_ 32 0#32 := zero_dst (W10 m ρ c)
  have b11 : W11 m ρ c (Proc.devRef .tc main_v10) = W10 m ρ c (Proc.devRef .tc main_v10) := by unwritten
  have b10 : W10 m ρ c (Proc.devRef .tc main_v10) = W9 m ρ c (Proc.devRef .tc main_v10) := by unwritten
  have b9 : W9 m ρ c (Proc.devRef .tc main_v10) = W8 m ρ c (Proc.devRef .tc main_v10) := by unwritten
  have b8 : (W8 m ρ c (Proc.devRef .tc main_v10) : S600000x128.Idx → EReal)
      = takeOf (W7 m ρ c (Proc.devRef .tc main_v6_1)) (W7 m ρ c (Proc.devRef .tc main_v8)) := take_dst (W7 m ρ c)
  have c7 : W7 m ρ c (Proc.devRef .tc main_v8) = W6 m ρ c (Proc.devRef .tc main_v8) := by unwritten
  have c6 : (W6 m ρ c (Proc.devRef .tc main_v8) : S600000.Idx → BitVec 32)
      = clipWith (W5 m ρ c (Proc.devRef .tc main_c_1)) (W5 m ρ c (Proc.devRef .tc main_c_2))
          (W5 m ρ c (Proc.devRef .tc main_arg6)) := clip_dst (W5 m ρ c)
  have k0 : (W5 m ρ c (Proc.devRef .tc main_c_1) : S_.Idx → BitVec 32) = constantI S_ 32 0#32 := (consts_dst (W4 m ρ c)).1
  have k1 : (W5 m ρ c (Proc.devRef .tc main_c_2) : S_.Idx → BitVec 32) = constantI S_ 32 49999#32 := (consts_dst (W4 m ρ c)).2
  have d7 : W7 m ρ c (Proc.devRef .tc main_v6_1) = W6 m ρ c (Proc.devRef .tc main_v6_1) := by unwritten
  have d6 : W6 m ρ c (Proc.devRef .tc main_v6_1) = W5 m ρ c (Proc.devRef .tc main_v6_1) := by unwritten
  have d5 : W5 m ρ c (Proc.devRef .tc main_v6_1) = W4 m ρ c (Proc.devRef .tc main_v6_1) := by unwritten
  have d4 : W4 m ρ c (Proc.devRef .tc main_v6_1) = W3 m ρ c (Proc.devRef .tc main_v6_1) := by unwritten
  have d3 : W3 m ρ c (Proc.devRef .tc main_v6_1) = W2 m ρ c (Proc.devRef .tc main_v6_1) := by unwritten
  have d2 : W2 m ρ c (Proc.devRef .tc main_v6_1) = (dat0 (F := Ideal) (V1 m ρ) c).arrAt 5 cfg0.N := W2_arr m ρ c 5
  have e5 : W5 m ρ c (Proc.devRef .tc main_arg6) = W4 m ρ c (Proc.devRef .tc main_arg6) := by unwritten
  have e4 : W4 m ρ c (Proc.devRef .tc main_arg6) = W3 m ρ c (Proc.devRef .tc main_arg6) := by unwritten
  have e3 : W3 m ρ c (Proc.devRef .tc main_arg6) = W2 m ρ c (Proc.devRef .tc main_arg6) := by unwritten
  have e2 : W2 m ρ c (Proc.devRef .tc main_arg6) = W1 m ρ c (Proc.devRef .tc main_arg6) :=
    W2_of_ne m ρ c main_arg6 (by decide)
  have e1 : W1 m ρ c (Proc.devRef .tc main_arg6) = W0 m ρ c (Proc.devRef .tc main_arg6) := by unwritten
  have e0 : W0 m ρ c (Proc.devRef .tc main_arg6) = m ((c : Thread nD τ).loc main_arg6) := rfl
  show W12 m ρ c (Proc.devRef .tc main_v12) = _
  rw [a12, z11, b11, b10, b9, b8, c7, c6, k0, k1, d7, d6, d5, d4, d3, d2, e5, e4, e3, e2, e1, e0]

/-! ## The two tables at an edge and a column -/

/-- The second launch's first table at edge `e` (below 600000) and column `j`: the first projection table, as the first
    launch left it, at the row the edge's source word names. -/
theorem V12_v11_apply (c : Dev nD) (e : Fin 606208) (he : e.val < 600000) (j : Fin 128)
    (hnn : 0 ≤ ((m ((c : Thread nD τ).loc main_arg5) : S600000.Idx → BitVec 32) (ix1 (⟨e.val, he⟩ : Fin 600000))).toInt) :
    (V12 m ρ c main_v11 : S606208x128.Idx → EReal) (ix2 e j)
      = ((dat0 (F := Ideal) (V1 m ρ) c).arrAt 4 cfg0.N : S50000x128.Idx → EReal)
          (ix2 (rowOf ((m ((c : Thread nD τ).loc main_arg5) : S600000.Idx → BitVec 32) (ix1 (⟨e.val, he⟩ : Fin 600000)))) j) := by
  rw [V12_v11_eq, padOf_apply _ _ e he j]
  exact takeOf_clip_apply _ _ _ j hnn

/-- The second launch's second table at edge `e` (below 600000) and column `j`: the second projection table at the row
    the edge's destination word names. -/
theorem V12_v12_apply (c : Dev nD) (e : Fin 606208) (he : e.val < 600000) (j : Fin 128)
    (hnn : 0 ≤ ((m ((c : Thread nD τ).loc main_arg6) : S600000.Idx → BitVec 32) (ix1 (⟨e.val, he⟩ : Fin 600000))).toInt) :
    (V12 m ρ c main_v12 : S606208x128.Idx → EReal) (ix2 e j)
      = ((dat0 (F := Ideal) (V1 m ρ) c).arrAt 5 cfg0.N : S50000x128.Idx → EReal)
          (ix2 (rowOf ((m ((c : Thread nD τ).loc main_arg6) : S600000.Idx → BitVec 32) (ix1 (⟨e.val, he⟩ : Fin 600000)))) j) := by
  rw [V12_v12_eq, padOf_apply _ _ e he j]
  exact takeOf_clip_apply _ _ _ j hnn

end Cert.KernelIdeal.HostGather

end
-- ==== Proof.KernelValue.lean ====
/-
  The kernel program's result at an edge is the edge score.
  The second launch's output at edge `e` is Σ_j max(S[e,j] + D[e,j], 0)·W2[0,j] + b2[0] with S and D the rows the host
  picked out of the first launch's two tables for the edge's source and destination words; those tables hold the two
  projections of the node table through the two halves of the first layer's weights; put together this is `score`
  at the rows the two words name.
-/
import proofs.«419971_j22832046146011_3_alg».proof.Proof.NodeProjValue
import proofs.«419971_j22832046146011_3_alg».proof.Proof.EdgeMlpValue
import proofs.«419971_j22832046146011_3_alg».proof.Proof.HostLayout
import proofs.«419971_j22832046146011_3_alg».proof.Proof.HostGather

set_option maxRecDepth 16384

noncomputable section

open scoped BigOperators

namespace Cert.KernelIdeal.KernelValue

open Cert.KernelIdeal Cert.KernelIdeal.Gen Cert.EdgeScore
open Idealize.ShloMosaic Idealize.ShloMosaic.TcCoe Idealize.ShloMosaic.ValueIdx Idealize.SL.Sem

variable (m : (ℓ : Loc nD τ sig) → Buf (Elt Ideal) ℓ) (ρ : Dev nD → PrngReg)

/-- The first launch's first table holds the source projection with the bias. -/
theorem tableA_apply (c : Dev nD) (r : Fin 50000) (j : Fin 128) :
    ((dat0 (F := Ideal) (V1 m ρ) c).arrAt 4 cfg0.N : S50000x128.Idx → EReal) (ix2 r j)
      = projA (m ((c : Thread nD τ).loc main_arg0)) (m ((c : Thread nD τ).loc main_arg1)) (m ((c : Thread nD τ).loc main_arg2)) r j := by
  refine (NodeProj.outA_apply (V1 m ρ) c r j).trans ?_
  unfold projA
  dsimp only [NodeProj.nodes, NodeProj.wSrc, NodeProj.bias]
  rw [HostLayout.V1_arg0 m ρ c, HostLayout.V1_v4_apply m ρ c j]
  simp only [HostLayout.V1_v1_apply m ρ c]

/-- The first launch's second table holds the destination projection. -/
theorem tableB_apply (c : Dev nD) (r : Fin 50000) (j : Fin 128) :
    ((dat0 (F := Ideal) (V1 m ρ) c).arrAt 5 cfg0.N : S50000x128.Idx → EReal) (ix2 r j)
      = projB (m ((c : Thread nD τ).loc main_arg0)) (m ((c : Thread nD τ).loc main_arg1)) r j := by
  refine (NodeProj.outB_apply (V1 m ρ) c r j).trans ?_
  unfold projB
  dsimp only [NodeProj.nodes, NodeProj.wDst]
  rw [HostLayout.V1_arg0 m ρ c]
  simp only [HostLayout.V1_v3_apply m ρ c]

/-- The program's result at edge `e`, for index words that are not negative. -/
theorem result_apply (c : Dev nD) (e : Fin 600000)
    (h5 : 0 ≤ ((m ((c : Thread nD τ).loc main_arg5) : S600000.Idx → BitVec 32) (ix1 e)).toInt)
    (h6 : 0 ≤ ((m ((c : Thread nD τ).loc main_arg6) : S600000.Idx → BitVec 32) (ix1 e)).toInt) :
    (W14 m ρ c (Proc.devRef .tc main_v14) : S600000.Idx → EReal) (ix1 e)
      = score (m ((c : Thread nD τ).loc main_arg0)) (m ((c : Thread nD τ).loc main_arg1)) (m ((c : Thread nD τ).loc main_arg2))
          (m ((c : Thread nD τ).loc main_arg3)) (m ((c : Thread nD τ).loc main_arg4))
          (rowOf ((m ((c : Thread nD τ).loc main_arg5) : S600000.Idx → BitVec 32) (ix1 e)))
          (rowOf ((m ((c : Thread nD τ).loc main_arg6) : S600000.Idx → BitVec 32) (ix1 e))) := by
  have he : e.val < 600000 := e.isLt
  refine (HostLayout.W14_v14_apply m ρ c e).trans ?_
  refine (EdgeMlp.out_apply (V12 m ρ) c (⟨e.val, by omega⟩ : Fin 606208)).trans ?_
  unfold score
  dsimp only [EdgeMlp.srcRows, EdgeMlp.dstRows, EdgeMlp.w2, EdgeMlp.b2]
  rw [HostLayout.V12_v5_apply m ρ c, HostLayout.V12_arg3 m ρ c]
  refine congrArg (· + _) (Finset.sum_congr rfl fun j _ => ?_)
  rw [HostGather.V12_v11_apply m ρ c (⟨e.val, by omega⟩ : Fin 606208) he j h5,
    HostGather.V12_v12_apply m ρ c (⟨e.val, by omega⟩ : Fin 606208) he j h6,
    tableA_apply m ρ c, tableB_apply m ρ c]

end Cert.KernelIdeal.KernelValue

end
-- ==== Proof.RefValue.lean ====
/-
  The reference's result at an edge is the edge score. For an edge whose two index words are not negative the
  reference's wrap-around leaves the words alone and each gather reads the row `rowOf` of its word; the concatenated
  row meets the transposed weights in one contraction over 256 inputs, which splits into the two projections
  (`hidden_eq`); the rectifier, the second contraction and the second bias are the score's own.
-/
import proofs.«419971_j22832046146011_3_alg».proof.Proof.Gen.ReferenceIdeal.Read
import proofs.«419971_j22832046146011_3_alg».proof.Proof.EdgeSpec
import proofs.«419971_j22832046146011_3_alg».proof.Proof.LibScatterGather2
import Idealize.ShloMosaic.Lib.ValueIdx
import Idealize.ShloMosaic.Lib.Pipeline.Value
import Idealize.ShloMosaic.PureOps.Ideal.Laws

set_option maxRecDepth 16384

noncomputable section

open scoped BigOperators

namespace Cert.ReferenceIdeal.RefScore

open Cert.ReferenceIdeal Cert.ReferenceIdeal.Gen Cert.ReferenceIdeal.Read Cert.EdgeScore
open Idealize.ShloMosaic Idealize.ShloMosaic.TcCoe Idealize.ShloMosaic.ValueIdx Idealize.SL.Sem

/-- A word that is not negative as a signed integer is not below zero in the signed order, so the wrap-around
    (add the table's height to a negative word) leaves it as it is. -/
theorem wrap_of_nonneg (w : BitVec 32) (h : 0 ≤ w.toInt) :
    Scalar.select (IntOp.cmpi .slt w 0#32) (IntOp.addi w 50000#32) w = w := by
  have hs : w.slt 0#32 = false := by
    unfold BitVec.slt
    exact decide_eq_false (by simp only [BitVec.toInt_zero]; omega)
  show Scalar.select (BitVec.ofBool (w.slt 0#32)) (IntOp.addi w 50000#32) w = w
  rw [hs]
  exact select_zero _ _

/-- The source start-index column at edge `e` is the source word itself when the word is not negative. -/
theorem start_src (x5 : (⟨S600000, .i32⟩ : BufTy).Contents (Elt Ideal)) (e : Fin 600000)
    (h5 : 0 ≤ ((x5 : S600000.Idx → BitVec 32) (ix1 e)).toInt) :
    (val_main_v5 (F := Ideal) x5 : S600000x1.Idx → BitVec 32) (ix2 e (0 : Fin 1)) = (x5 : S600000.Idx → BitVec 32) (ix1 e) := by
  have ei : idx_main_v5 (ix2 e (0 : Fin 1)) = ix1 e := funext fun a => Fin.ext (by match a with | ⟨0, _⟩ => rfl)
  rw [val_main_v5_apply, ei, val_main_v4_apply, val_main_v1_apply, val_main_v3_apply, val_main_v0_apply, val_main_c_apply,
    val_main_v2_apply, val_main_c_0_apply]
  exact wrap_of_nonneg _ h5

/-- The destination start-index column at edge `e` is the destination word itself when the word is not negative. -/
theorem start_dst (x6 : (⟨S600000, .i32⟩ : BufTy).Contents (Elt Ideal)) (e : Fin 600000)
    (h6 : 0 ≤ ((x6 : S600000.Idx → BitVec 32) (ix1 e)).toInt) :
    (val_main_v12 (F := Ideal) x6 : S600000x1.Idx → BitVec 32) (ix2 e (0 : Fin 1)) = (x6 : S600000.Idx → BitVec 32) (ix1 e) := by
  have ei : idx_main_v12 (ix2 e (0 : Fin 1)) = ix1 e := funext fun a => Fin.ext (by match a with | ⟨0, _⟩ => rfl)
  rw [val_main_v12_apply, ei, val_main_v11_apply, val_main_v8_apply, val_main_v10_apply, val_main_v7_apply, val_main_c_1_apply,
    val_main_v9_apply, val_main_c_2_apply]
  exact wrap_of_nonneg _ h6

/-- The source gather at `(e, k)` is the node table at the row the source word names, column `k`. -/
theorem gather_src (x0 : (⟨S50000x128, .f32⟩ : BufTy).Contents (Elt Ideal)) (x5 : (⟨S600000, .i32⟩ : BufTy).Contents (Elt Ideal))
    (e : Fin 600000) (k : Fin 128) (h5 : 0 ≤ ((x5 : S600000.Idx → BitVec 32) (ix1 e)).toInt) :
    (val_main_v6 (F := Ideal) x0 x5 : S600000x128.Idx → EReal) (ix2 e k)
      = (x0 : S50000x128.Idx → EReal) (ix2 (rowOf ((x5 : S600000.Idx → BitVec 32) (ix1 e))) k) := by
  unfold val_main_v6
  rw [Cert.LibScatterGather2.gather_apply_clamp gather_S50000x128_S600000x1_S600000x128_1_0_n_n_0_1_1128 rfl rfl rfl rfl rfl
    x0 (val_main_v5 (F := Ideal) x5) e k (by decide)]
  refine congrArg (fun r => (x0 : S50000x128.Idx → EReal) (ix2 r k)) (Fin.ext ?_)
  show min ((val_main_v5 (F := Ideal) x5 : S600000x1.Idx → BitVec 32) (ix2 e (0 : Fin 1))).toInt.toNat (50000 - 1) = _
  rw [start_src x5 e h5]
  rfl

/-- The destination gather at `(e, k)` is the node table at the row the destination word names, column `k`. -/
theorem gather_dst (x0 : (⟨S50000x128, .f32⟩ : BufTy).Contents (Elt Ideal)) (x6 : (⟨S600000, .i32⟩ : BufTy).Contents (Elt Ideal))
    (e : Fin 600000) (k : Fin 128) (h6 : 0 ≤ ((x6 : S600000.Idx → BitVec 32) (ix1 e)).toInt) :
    (val_main_v13 (F := Ideal) x0 x6 : S600000x128.Idx → EReal) (ix2 e k)
      = (x0 : S50000x128.Idx → EReal) (ix2 (rowOf ((x6 : S600000.Idx → BitVec 32) (ix1 e))) k) := by
  unfold val_main_v13
  rw [Cert.LibScatterGather2.gather_apply_clamp gather_S50000x128_S600000x1_S600000x128_1_0_n_n_0_1_1128 rfl rfl rfl rfl rfl
    x0 (val_main_v12 (F := Ideal) x6) e k (by decide)]
  refine congrArg (fun r => (x0 : S50000x128.Idx → EReal) (ix2 r k)) (Fin.ext ?_)
  show min ((val_main_v12 (F := Ideal) x6 : S600000x1.Idx → BitVec 32) (ix2 e (0 : Fin 1))).toInt.toNat (50000 - 1) = _
  rw [start_dst x6 e h6]
  rfl

/-- Column `lo k` of the concatenated row of edge `e` is column `k` of the source gather. -/
theorem concat_lo (x0 : (⟨S50000x128, .f32⟩ : BufTy).Contents (Elt Ideal)) (x5 x6 : (⟨S600000, .i32⟩ : BufTy).Contents (Elt Ideal))
    (e : Fin 600000) (k : Fin 128) :
    (val_main_v14 (F := Ideal) x0 x5 x6 : S600000x256.Idx → EReal) (ix2 e (lo k))
      = (val_main_v6 (F := Ideal) x0 x5 : S600000x128.Idx → EReal) (ix2 e k) := by
  unfold val_main_v14
  generalize val_main_v6 (F := Ideal) x0 x5 = y1
  generalize val_main_v13 (F := Ideal) x0 x6 = y2
  exact concatenate_pair_apply_left (1 : Fin S600000x256.rank) y1 y2 Facts₀.concatenates_S600000x128_S600000x128_S600000x256_d1
    (ix2 e (lo k)) rfl (ix2 e k) (fun b => by match b with | ⟨0, _⟩ => rfl | ⟨1, _⟩ => rfl)

/-- Column `hi k` of the concatenated row of edge `e` is column `k` of the destination gather. -/
theorem concat_hi (x0 : (⟨S50000x128, .f32⟩ : BufTy).Contents (Elt Ideal)) (x5 x6 : (⟨S600000, .i32⟩ : BufTy).Contents (Elt Ideal))
    (e : Fin 600000) (k : Fin 128) :
    (val_main_v14 (F := Ideal) x0 x5 x6 : S600000x256.Idx → EReal) (ix2 e (hi k))
      = (val_main_v13 (F := Ideal) x0 x6 : S600000x128.Idx → EReal) (ix2 e k) := by
  unfold val_main_v14
  generalize val_main_v6 (F := Ideal) x0 x5 = y1
  generalize val_main_v13 (F := Ideal) x0 x6 = y2
  exact concatenate_pair_apply_right (1 : Fin S600000x256.rank) y1 y2 Facts₀.concatenates_S600000x128_S600000x128_S600000x256_d1
    (ix2 e (hi k)) rfl rfl (ix2 e k)
    (fun b hb => by match b, hb with | ⟨0, _⟩, _ => rfl | ⟨1, _⟩, hb => exact absurd rfl hb)
    (by show k.val + 128 = 128 + k.val; omega)

/-- The hidden unit `j` of edge `e` before the rectifier: the source row's projection with the bias plus the
    destination row's projection. -/
theorem hidden_apply (x0 : (⟨S50000x128, .f32⟩ : BufTy).Contents (Elt Ideal)) (x1 : (⟨S128x256, .f32⟩ : BufTy).Contents (Elt Ideal))
    (x2 : (⟨S128, .f32⟩ : BufTy).Contents (Elt Ideal)) (x5 x6 : (⟨S600000, .i32⟩ : BufTy).Contents (Elt Ideal))
    (e : Fin 600000) (j : Fin 128) (h5 : 0 ≤ ((x5 : S600000.Idx → BitVec 32) (ix1 e)).toInt)
    (h6 : 0 ≤ ((x6 : S600000.Idx → BitVec 32) (ix1 e)).toInt) :
    (val_main_v19 (F := Ideal) x0 x1 x2 x5 x6 : S600000x128.Idx → EReal) (ix2 e j)
      = projA x0 x1 x2 (rowOf ((x5 : S600000.Idx → BitVec 32) (ix1 e))) j
        + projB x0 x1 (rowOf ((x6 : S600000.Idx → BitVec 32) (ix1 e))) j := by
  have el : ∀ k : Fin 256, lidx_main_v16 (ix2 e j) k = ix2 e k := fun k =>
    funext fun a => Fin.ext (by match a with | ⟨0, _⟩ => rfl | ⟨1, _⟩ => rfl)
  have er : ∀ k : Fin 256, idx_main_v15 (ridx_main_v16 (ix2 e j) k) = ix2 j k := fun k =>
    funext fun a => Fin.ext (by match a with | ⟨0, _⟩ => rfl | ⟨1, _⟩ => rfl)
  have eb : idx_main_v17 (idx_main_v18 (ix2 e j)) = ix1 j :=
    funext fun a => Fin.ext (by match a with | ⟨0, _⟩ => rfl)
  rw [val_main_v19_apply, val_main_v16_apply, val_main_v18_apply, val_main_v17_apply, eb, Ideal.addf_def]
  simp only [val_main_v15_apply, el, er]
  exact hidden_eq x0 x1 x2 _ _ j (fun k => (val_main_v14 (F := Ideal) x0 x5 x6 : S600000x256.Idx → EReal) (ix2 e k))
    (fun k => (concat_lo x0 x5 x6 e k).trans (gather_src x0 x5 e k h5))
    (fun k => (concat_hi x0 x5 x6 e k).trans (gather_dst x0 x6 e k h6))

/-- The hidden unit `j` of edge `e` after the rectifier. -/
theorem relu_apply (x0 : (⟨S50000x128, .f32⟩ : BufTy).Contents (Elt Ideal)) (x1 : (⟨S128x256, .f32⟩ : BufTy).Contents (Elt Ideal))
    (x2 : (⟨S128, .f32⟩ : BufTy).Contents (Elt Ideal)) (x5 x6 : (⟨S600000, .i32⟩ : BufTy).Contents (Elt Ideal))
    (e : Fin 600000) (j : Fin 128) (h5 : 0 ≤ ((x5 : S600000.Idx → BitVec 32) (ix1 e)).toInt)
    (h6 : 0 ≤ ((x6 : S600000.Idx → BitVec 32) (ix1 e)).toInt) :
    (val_main_v20 (F := Ideal) x0 x1 x2 x5 x6 : S600000x128.Idx → EReal) (ix2 e j)
      = max (projA x0 x1 x2 (rowOf ((x5 : S600000.Idx → BitVec 32) (ix1 e))) j
        + projB x0 x1 (rowOf ((x6 : S600000.Idx → BitVec 32) (ix1 e))) j) 0 := by
  rw [val_main_v20_apply, val_main_call0_v0_apply, val_main_call0_cst_apply, Ideal.ofBits_def, Ideal.ofBits_zero_f32,
    Ideal.maximumf_def, hidden_apply x0 x1 x2 x5 x6 e j h5 h6]

/-- The reference's result at edge `e`, for index words that are not negative. -/
theorem result_apply (x0 : (⟨S50000x128, .f32⟩ : BufTy).Contents (Elt Ideal)) (x1 : (⟨S128x256, .f32⟩ : BufTy).Contents (Elt Ideal))
    (x2 : (⟨S128, .f32⟩ : BufTy).Contents (Elt Ideal)) (x3 : (⟨S1x128, .f32⟩ : BufTy).Contents (Elt Ideal))
    (x4 : (⟨S1, .f32⟩ : BufTy).Contents (Elt Ideal)) (x5 x6 : (⟨S600000, .i32⟩ : BufTy).Contents (Elt Ideal))
    (e : Fin 600000) (h5 : 0 ≤ ((x5 : S600000.Idx → BitVec 32) (ix1 e)).toInt) (h6 : 0 ≤ ((x6 : S600000.Idx → BitVec 32) (ix1 e)).toInt) :
    (val_main_v26 (F := Ideal) x0 x1 x2 x3 x4 x5 x6 : S600000.Idx → EReal) (ix1 e)
      = score x0 x1 x2 x3 x4 (rowOf ((x5 : S600000.Idx → BitVec 32) (ix1 e))) (rowOf ((x6 : S600000.Idx → BitVec 32) (ix1 e))) := by
  have e26 : idx_main_v26 (ix1 e) = ix2 e (0 : Fin 1) :=
    funext fun a => Fin.ext (by match a with | ⟨0, _⟩ => exact Nat.div_one _ | ⟨1, _⟩ => rfl)
  have el : ∀ k : Fin 128, lidx_main_v22 (ix2 e (0 : Fin 1)) k = ix2 e k := fun k =>
    funext fun a => Fin.ext (by match a with | ⟨0, _⟩ => rfl | ⟨1, _⟩ => rfl)
  have er : ∀ k : Fin 128, idx_main_v21 (ridx_main_v22 (ix2 e (0 : Fin 1)) k) = ix2 (0 : Fin 1) k := fun k =>
    funext fun a => Fin.ext (by match a with | ⟨0, _⟩ => rfl | ⟨1, _⟩ => rfl)
  have eb : idx_main_v23 (idx_main_v24 (ix2 e (0 : Fin 1))) = ix1 (0 : Fin 1) :=
    funext fun a => Fin.ext (by match a with | ⟨0, _⟩ => rfl)
  rw [val_main_v26_apply, e26, val_main_v25_apply, val_main_v22_apply, val_main_v24_apply, val_main_v23_apply, eb, Ideal.addf_def]
  simp only [val_main_v21_apply, el, er]
  unfold score
  refine congrArg (· + (x4 : S1.Idx → EReal) (ix1 (0 : Fin 1))) ?_
  refine Finset.sum_congr rfl fun j _ => ?_
  rw [relu_apply x0 x1 x2 x5 x6 e j h5 h6]

end Cert.ReferenceIdeal.RefScore

end
-- ==== Proof.PreDecode.lean ====
/-
  What the precondition says of the index words: its last two conjuncts are "every source word is not negative" and
  "every destination word is not negative", each an all-reduction of a signed comparison with zero; so under the
  precondition every index word, read as a signed integer, is at least zero.
-/
import proofs.«419971_j22832046146011_3_alg».proof.Pre_finite_inputs
import proofs.«419971_j22832046146011_3_alg».proof.Proof.Gen.Pre_finite_inputs
import Idealize.ShloMosaic.Lib.ValueIdx
import Idealize.ShloMosaic.Lib.ReduceAll
import Idealize.ShloMosaic.Lib.StableHlo.Predicate
import Idealize.ShloMosaic.PureOps.Ideal

noncomputable section

namespace Cert.Pre_finite_inputs.Decode

open Cert.Pre_finite_inputs
open Idealize.ShloMosaic Idealize.ShloMosaic.ValueIdx

/-- The shape of rank zero has one index. -/
instance subsingleton_scalar_idx : Subsingleton S_.Idx := ⟨fun a b => funext fun d => d.elim0⟩

/-- An all-reduction by `and` of "word ≥ 0 (signed)" over the 600000 words that came out one says every word, read as a
    signed integer, is at least zero. -/
theorem nonneg_of_all_sge [Facts] (a : IVec S600000 32) (c : IVec S_ 1)
    (h : Host.reduce IntOp.andi
        (cmpi .sge a (broadcastInDim S600000 ![] Facts.bcast_S_S600000 (constantI S_ 32 0#32))) c
        Facts.reducesTo_S600000_S_d0 Facts.h_S_ ix0 = 1#1) (e : Fin 600000) :
    0 ≤ (a (ix1 e)).toInt := by
  have h1 := Host.reduce_andi_all _ _ _ _ _ h (ix1 e)
  have h2 : IntOp.cmpi .sge (a (ix1 e)) 0#32 = 1#1 := h1
  have h3 := IntOp.cmpi_sge.1 h2
  have hz : (0#32 : BitVec 32).toInt = 0 := by decide
  rw [hz] at h3
  exact h3

/-- Under the precondition both index words of every edge are non-negative as signed integers. -/
theorem nonneg (a0 : FVec Ideal S50000x128 .f32) (a1 : FVec Ideal S128x256 .f32) (a2 : FVec Ideal S128 .f32)
    (a3 : FVec Ideal S1x128 .f32) (a4 : FVec Ideal S1 .f32) (a5 a6 : IVec S600000 32)
    (h : fn (F := Ideal) a0 a1 a2 a3 a4 a5 a6 = fun _ => 1#1) (e : Fin 600000) :
    0 ≤ (a5 (ix1 e)).toInt ∧ 0 ≤ (a6 (ix1 e)).toInt := by
  have h0 := congrFun h ix0
  -- the whole is (… ∧ "every source word ≥ 0") ∧ "every destination word ≥ 0": split the two outermost conjunctions
  change IntOp.andi (IntOp.andi _ _) _ = 1#1 at h0
  obtain ⟨h27, h30⟩ := IntOp.andi_eq_one.1 h0
  obtain ⟨-, h26⟩ := IntOp.andi_eq_one.1 h27
  exact ⟨nonneg_of_all_sge a5 _ h26 e, nonneg_of_all_sge a6 _ h30 e⟩

end Cert.Pre_finite_inputs.Decode

end
-- ==== Proof.lean ====
/-
  The certificate of the edge-scoring kernel against its reference, over the extended reals.

  For every edge (s, d) of a graph, both programs compute
      Σ_j max(0, Σ_k x[k]·W1[j,k] + b1[j]) · W2[0,j] + b2[0],   x = (h[s,:], h[d,:]) the two nodes' features side by side.
  The reference gathers the two feature rows, concatenates them and contracts all 256 inputs at once. The kernel first
  projects every NODE through the two halves of W1 (one launch: A = h·W1[:, :128]ᵀ + b1, B = h·W1[:, 128:]ᵀ), then
  gathers A's row for the source and B's row for the destination, and a second launch adds them, rectifies, and
  contracts with W2. The two agree because a sum over 256 inputs is the sum of its two halves and addition of extended
  reals is commutative and associative; no finiteness is used.
  The index words are assumed non-negative: the reference reads a negative word from the table's end, the kernel clamps
  it to row 0. For a non-negative word both read the row the word names, the last row when the word is past the end.
  The three frames are the generated ones (the reference's is its generated run with the result dropped); the kernel's
  idealization rewrote nothing, so that conjunct is trivial.
-/
import proofs.«419971_j22832046146011_3_alg».proof.Defs
import proofs.«419971_j22832046146011_3_alg».proof.Proof.Gen.Kernel
import proofs.«419971_j22832046146011_3_alg».proof.Proof.Gen.Kernel.Skeleton
import proofs.«419971_j22832046146011_3_alg».proof.Proof.Gen.Kernel.Launch
import proofs.«419971_j22832046146011_3_alg».proof.Proof.Gen.Kernel.Points
import proofs.«419971_j22832046146011_3_alg».proof.Proof.Gen.Kernel.Frame
import proofs.«419971_j22832046146011_3_alg».proof.Proof.Gen.KernelIdeal
import proofs.«419971_j22832046146011_3_alg».proof.Proof.Gen.KernelIdeal.Skeleton
import proofs.«419971_j22832046146011_3_alg».proof.Proof.Gen.KernelIdeal.Launch
import proofs.«419971_j22832046146011_3_alg».proof.Proof.Gen.KernelIdeal.Points
import proofs.«419971_j22832046146011_3_alg».proof.Proof.Gen.KernelIdeal.Frame
import proofs.«419971_j22832046146011_3_alg».proof.Proof.Gen.ReferenceIdeal
import proofs.«419971_j22832046146011_3_alg».proof.Proof.Gen.ReferenceIdeal.Run
import proofs.«419971_j22832046146011_3_alg».proof.Proof.Gen.ReferenceIdeal.Read
import proofs.«419971_j22832046146011_3_alg».proof.Proof.Gen.Pre_finite_inputs
import proofs.«419971_j22832046146011_3_alg».proof.Proof.EdgeSpec
import proofs.«419971_j22832046146011_3_alg».proof.Proof.KernelRun
import proofs.«419971_j22832046146011_3_alg».proof.Proof.KernelValue
import proofs.«419971_j22832046146011_3_alg».proof.Proof.RefValue
import proofs.«419971_j22832046146011_3_alg».proof.Proof.PreDecode
import Idealize.ShloMosaic.Adequacy
import Idealize.ShloMosaic.Init

noncomputable section

namespace Cert.Proof

open Idealize.ShloMosaic Idealize.ShloMosaic.ValueIdx Idealize.SL.Sem Cert.EdgeScore

/-- The common result: at every edge the score of the argument tables at the rows the edge's two words name. -/
def edgeScores (h : Tab 50000 128) (W1 : Tab 128 256) (b1 : Row 128) (W2 : Tab 1 128) (b2 : Row 1)
    (src dst : (⟨1, ![600000]⟩ : Shape).Idx → BitVec 32) : (⟨1, ![600000]⟩ : Shape).Idx → EReal :=
  fun i => score h W1 b1 W2 b2 (rowOf (src i)) (rowOf (dst i))

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with `edgeScores` of arguments that agree. -/
theorem algebraic : Cert.algebraic_KernelIdeal_ReferenceIdeal := by
  intro m ρ m' ρ' hpre hagree
  refine ⟨fun c => edgeScores (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · refine (θ_run Cert.KernelIdeal.defs _ _).mono (fun r h c => ⟨(h c).1.trans ?_, (h c).2⟩)
      (Cert.KernelIdeal.Run.run_main (F := Ideal) m ρ)
    funext i
    obtain ⟨e, rfl⟩ : ∃ e : Fin 600000, i = ix1 e := ⟨i 0, eq_ix1 i⟩
    obtain ⟨h5, h6⟩ := Cert.Pre_finite_inputs.Decode.nonneg _ _ _ _ _ _ _ (hpre c) e
    exact Cert.KernelIdeal.KernelValue.result_apply m ρ c e h5 h6
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v26_eq, (hagree c).1, (hagree c).2.1, (hagree c).2.2.1, (hagree c).2.2.2.1,
      (hagree c).2.2.2.2.1, (hagree c).2.2.2.2.2.1, (hagree c).2.2.2.2.2.2]
    funext i
    obtain ⟨e, rfl⟩ : ∃ e : Fin 600000, i = ix1 e := ⟨i 0, eq_ix1 i⟩
    obtain ⟨h5, h6⟩ := Cert.Pre_finite_inputs.Decode.nonneg _ _ _ _ _ _ _ (hpre c) e
    exact Cert.ReferenceIdeal.RefScore.result_apply _ _ _ _ _ _ _ e h5 h6

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
